-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x8 : Shape := ⟨2, ![524288, 8]⟩
abbrev S128x8 : Shape := ⟨2, ![128, 8]⟩
abbrev S128x32 : Shape := ⟨2, ![128, 32]⟩
abbrev S128 : Shape := ⟨1, ![128]⟩
abbrev S2x1x32 : Shape := ⟨3, ![2, 1, 32]⟩
abbrev S16x32 : Shape := ⟨2, ![16, 32]⟩
abbrev S16 : Shape := ⟨1, ![16]⟩
abbrev S_ : Shape := ⟨0, ![]⟩

class Facts : Prop where
  bcast_S_S524288x8 : S_.BroadcastsInDim S524288x8 (![] : Fin 0 → Fin S524288x8.rank)
  reducesTo_S524288x8_S_d0_1 : S524288x8.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S2x1x32 : S_.BroadcastsInDim S2x1x32 (![] : Fin 0 → Fin S2x1x32.rank)
  reducesTo_S2x1x32_S_d0_1_2 : S2x1x32.ReducesTo [0, 1, 2] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg14 : FVec F S16 .f32) (main_arg15 : FVec F S16x32 .f32) (main_arg16 : FVec F S16 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x32 .f32 := Host.absf main_arg15
  let main_cst_28 : FVec F S_ .f32 := constant S_ .f32 0x7F800000#32
  let main_v75 : FVec F S16x32 .f32 := broadcastInDim S16x32 ![] bcast_S_S16x32 main_cst_28
  let main_v76 : IVec S16x32 1 := cmpf .olt main_v74 main_v75
  let main_c_29 : IVec S_ 1 := constantI S_ 1 1#1
  let main_v77 : IVec S_ 1 := (fun x v => Host.reduce IntOp.andi x v reducesTo_S16x32_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg11 : FVec F S16x32 .f32) (main_arg12 : FVec F S16 .f32) (main_arg13 : FVec F S16 .f32) (main_arg14 : FVec F S16 .f32) (main_arg15 : FVec F S16x32 .f32) (main_arg16 : FVec F S16 .f32) (main_v48 : IVec S_ 1) (main_v49 : FVec F S2x1x32 .f32) (main_v50 : FVec F S2x1x32 .f32) : IVec S_ 1 :=
  let main_v51 : IVec S2x1x32 1 := cmpf .olt main_v49 main_v50
  let main_c_19 : IVec S_ 1 := constantI S_ 1 1#1
  let main_v52 : IVec S_ 1 := (fun x v => Host.reduce IntOp.andi x v reducesTo_S2x1x32_S_d0_1_2 h_S_) main_v51 main_c_19
  let main_v53 : IVec S_ 1 := andi main_v48 main_v52
  let main_v54 : FVec F S16x32 .f32 := Host.absf main_arg11
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_v63 main_v67

def fn_part2 {F : FTy → Type} [FloatOps F] (main_arg7 : FVec F S128 .f32) (main_arg8 : FVec F S128 .f32) (main_arg9 : FVec F S2x1x32 .f32) (main_arg10 : FVec F S2x1x32 .f32) (main_arg11 : FVec F S16x32 .f32) (main_arg12 : FVec F S16 .f32) (main_arg13 : FVec F S16 .f32) (main_arg14 : FVec F S16 .f32) (main_arg15 : FVec F S16x32 .f32) (main_arg16 : FVec F S16 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x1x32 .f32 := Host.absf main_arg9
  let main_cst_16 : FVec F S_ .f32 := constant S_ .f32 0x7F800000#32
  let main_v45 : FVec F S2x1x32 .f32 := broadcastInDim S2x1x32 ![] bcast_S_S2x1x32 main_cst_16
  let main_v46 : IVec S2x1x32 1 := cmpf .olt main_v44 main_v45
  let main_c_17 : IVec S_ 1 := constantI S_ 1 1#1
  let main_v47 : IVec S_ 1 := (fun x v => Host.reduce IntOp.andi x v reducesTo_S2x1x32_S_d0_1_2 h_S_) main_v46 main_c_17
  let main_v48 : IVec S_ 1 := andi main_v43 main_v47
  let main_v49 : FVec F S2x1x32 .f32 := Host.absf main_arg10
  let main_cst_18 : FVec F S_ .f32 := constant S_ .f32 0x7F800000#32
  let main_v50 : FVec F S2x1x32 .f32 := broadcastInDim S2x1x32 ![] bcast_S_S2x1x32 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x32 .f32) (main_arg6 : FVec F S128x32 .f32) (main_arg7 : FVec F S128 .f32) (main_arg8 : FVec F S128 .f32) (main_arg9 : FVec F S2x1x32 .f32) (main_arg10 : FVec F S2x1x32 .f32) (main_arg11 : FVec F S16x32 .f32) (main_arg12 : FVec F S16 .f32) (main_arg13 : FVec F S16 .f32) (main_arg14 : FVec F S16 .f32) (main_arg15 : FVec F S16x32 .f32) (main_arg16 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S524288x8 .f32) (main_arg1 : FVec F S128x8 .f32) (main_arg2 : FVec F S128x32 .f32) (main_arg3 : FVec F S128 .f32) (main_arg4 : FVec F S128 .f32) (main_arg5 : FVec F S128x32 .f32) (main_arg6 : FVec F S128x32 .f32) (main_arg7 : FVec F S128 .f32) (main_arg8 : FVec F S128 .f32) (main_arg9 : FVec F S2x1x32 .f32) (main_arg10 : FVec F S2x1x32 .f32) (main_arg11 : FVec F S16x32 .f32) (main_arg12 : FVec F S16 .f32) (main_arg13 : FVec F S16 .f32) (main_arg14 : FVec F S16 .f32) (main_arg15 : FVec F S16x32 .f32) (main_arg16 : FVec F S16 .f32) : IVec S_ 1 :=
  let main_v0 : FVec F S524288x8 .f32 := Host.absf main_arg0
  let main_cst : FVec F S_ .f32 := constant S_ .f32 0x7F800000#32
  let main_v1 : FVec F S524288x8 .f32 := broadcastInDim S524288x8 ![] bcast_S_S524288x8 main_cst
  let main_v2 : IVec S524288x8 1 := cmpf .olt main_v0 main_v1
  let main_c : IVec S_ 1 := constantI S_ 1 1#1
  let main_v3 : IVec S_ 1 := (fun x v => Host.reduce IntOp.andi x v reducesTo_S524288x8_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S524288x8 : Shape := ⟨2, ![524288, 8]⟩
abbrev S128x8 : Shape := ⟨2, ![128, 8]⟩
abbrev S128x32 : Shape := ⟨2, ![128, 32]⟩
abbrev S128 : Shape := ⟨1, ![128]⟩
abbrev S2x1x32 : Shape := ⟨3, ![2, 1, 32]⟩
abbrev S16x32 : Shape := ⟨2, ![16, 32]⟩
abbrev S16 : Shape := ⟨1, ![16]⟩
abbrev S8x128 : Shape := ⟨2, ![8, 128]⟩
abbrev S32x128 : Shape := ⟨2, ![32, 128]⟩
abbrev S1x128 : Shape := ⟨2, ![1, 128]⟩
abbrev S1x1x32 : Shape := ⟨3, ![1, 1, 32]⟩
abbrev S1x32 : Shape := ⟨2, ![1, 32]⟩
abbrev S32x16 : Shape := ⟨2, ![32, 16]⟩
abbrev S1x16 : Shape := ⟨2, ![1, 16]⟩
abbrev S524288x16 : Shape := ⟨2, ![524288, 16]⟩
abbrev S4096x8 : Shape := ⟨2, ![4096, 8]⟩
abbrev S4096x16 : Shape := ⟨2, ![4096, 16]⟩
abbrev S4096x32 : Shape := ⟨2, ![4096, 32]⟩
abbrev S4096x128 : Shape := ⟨2, ![4096, 128]⟩
abbrev S4096 : Shape := ⟨1, ![4096]⟩
abbrev S4096x1 : Shape := ⟨2, ![4096, 1]⟩

abbrev nBuf : Space → Nat
  | .hbm => 41
  | .vmem => 22
  | .smem => 0
  | _ => 0

abbrev bufTy : (tb : Table) → Fin (tcTables nBuf tb) → BufTy
  | .hbm, ⟨0, _⟩ => ⟨S524288x8, .f32⟩
  | .hbm, ⟨1, _⟩ => ⟨S128x8, .f32⟩
  | .hbm, ⟨2, _⟩ => ⟨S128x32, .f32⟩
  | .hbm, ⟨3, _⟩ => ⟨S128, .f32⟩
  | .hbm, ⟨4, _⟩ => ⟨S128, .f32⟩
  | .hbm, ⟨5, _⟩ => ⟨S128x32, .f32⟩
  | .hbm, ⟨6, _⟩ => ⟨S128x32, .f32⟩
  | .hbm, ⟨7, _⟩ => ⟨S128, .f32⟩
  | .hbm, ⟨8, _⟩ => ⟨S128, .f32⟩
  | .hbm, ⟨9, _⟩ => ⟨S2x1x32, .f32⟩
  | .hbm, ⟨10, _⟩ => ⟨S2x1x32, .f32⟩
  | .hbm, ⟨11, _⟩ => ⟨S16x32, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16x32, .f32⟩
  | .hbm, ⟨16, _⟩ => ⟨S16, .f32⟩
  | .hbm, ⟨17, _⟩ => ⟨S8x128, .f32⟩
  | .hbm, ⟨18, _⟩ => ⟨S32x128, .f32⟩
  | .hbm, ⟨19, _⟩ => ⟨S128, .f32⟩
  | .hbm, ⟨20, _⟩ => ⟨S1x128, .f32⟩
  | .hbm, ⟨21, _⟩ => ⟨S1x1x32, .f32⟩
  | .hbm, ⟨22, _⟩ => ⟨S1x32, .f32⟩
  | .hbm, ⟨23, _⟩ => ⟨S1x1x32, .f32⟩
  | .hbm, ⟨24, _⟩ => ⟨S1x32, .f32⟩
  | .hbm, ⟨25, _⟩ => ⟨S32x128, .f32⟩
  | .hbm, ⟨26, _⟩ => ⟨S32x128, .f32⟩
  | .hbm, ⟨27, _⟩ => ⟨S128, .f32⟩
  | .hbm, ⟨28, _⟩ => ⟨S1x128, .f32⟩
  | .hbm, ⟨29, _⟩ => ⟨S1x1x32, .f32⟩
  | .hbm, ⟨30, _⟩ => ⟨S1x32, .f32⟩
  | .hbm, ⟨31, _⟩ => ⟨S1x1x32, .f32⟩
  | .hbm, ⟨32, _⟩ => ⟨S1x32, .f32⟩
  | .hbm, ⟨33, _⟩ => ⟨S32x16, .f32⟩
  | .hbm, ⟨34, _⟩ => ⟨S1x16, .f32⟩
  | .hbm, ⟨35, _⟩ => ⟨S1x16, .f32⟩
  | .hbm, ⟨36, _⟩ => ⟨S1x16, .f32⟩
  | .hbm, ⟨37, _⟩ => ⟨S32x16, .f32⟩
  | .hbm, ⟨38, _⟩ => ⟨S1x16, .f32⟩
  | .hbm, ⟨39, _⟩ => ⟨S524288x16, .f32⟩
  | .hbm, ⟨40, _⟩ => ⟨S524288x16, .f32⟩
  | .local _ .vmem, ⟨0, _⟩ => ⟨S4096x8, .f32⟩
  | .local _ .vmem, ⟨1, _⟩ => ⟨S4096x8, .f32⟩
  | .local _ .vmem, ⟨2, _⟩ => ⟨S8x128, .f32⟩
  | .local _ .vmem, ⟨3, _⟩ => ⟨S32x128, .f32⟩
  | .local _ .vmem, ⟨4, _⟩ => ⟨S1x128, .f32⟩
  | .local _ .vmem, ⟨5, _⟩ => ⟨S1x32, .f32⟩
  | .local _ .vmem, ⟨6, _⟩ => ⟨S1x32, .f32⟩
  | .local _ .vmem, ⟨7, _⟩ => ⟨S32x128, .f32⟩
  | .local _ .vmem, ⟨8, _⟩ => ⟨S32x128, .f32⟩
  | .local _ .vmem, ⟨9, _⟩ => ⟨S1x128, .f32⟩
  | .local _ .vmem, ⟨10, _⟩ => ⟨S1x32, .f32⟩
  | .local _ .vmem, ⟨11, _⟩ => ⟨S1x32, .f32⟩
  | .local _ .vmem, ⟨12, _⟩ => ⟨S32x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S32x16, .f32⟩
  | .local _ .vmem, ⟨17, _⟩ => ⟨S1x16, .f32⟩
  | .local _ .vmem, ⟨18, _⟩ => ⟨S4096x16, .f32⟩
  | .local _ .vmem, ⟨19, _⟩ => ⟨S4096x16, .f32⟩
  | .local _ .vmem, ⟨20, _⟩ => ⟨S4096x16, .f32⟩
  | .local _ .vmem, ⟨21, _⟩ => ⟨S4096x16, .f32⟩
  | _, _ => ⟨S524288x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4096x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4096x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S128x8_S8x128_1_0 : S128x8.Transposes [1, 0] S8x128
  transposes_S128x32_S32x128_1_0 : S128x32.Transposes [1, 0] S32x128
  shapeCasts_S128_S1x128 : S128.ShapeCasts S1x128
  slices_S2x1x32_S1x1x32_0_0_0 : S2x1x32.Slices ![0, 0, 0] S1x1x32
  shapeCasts_S1x1x32_S1x32 : S1x1x32.ShapeCasts S1x32
  slices_S2x1x32_S1x1x32_1_0_0 : S2x1x32.Slices ![1, 0, 0] S1x1x32
  transposes_S16x32_S32x16_1_0 : S16x32.Transposes [1, 0] S32x16
  shapeCasts_S16_S1x16 : S16.ShapeCasts S1x16
  inb_S4096x8_S4096x8_0_0 : ∀ a, (![0, 0] : Fin 2 → Nat) a + S4096x8.size a ≤ S4096x8.size a
  h_S4096x8 : 0 < S4096x8.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x128_o0_0_S4096x32 : S4096x128.Slices ![0, 0] S4096x32
  slices_S4096x128_o0_32_S4096x32 : S4096x128.Slices ![0, 32] S4096x32
  slices_S4096x128_o0_64_S4096x32 : S4096x128.Slices ![0, 64] S4096x32
  slices_S4096x128_o0_96_S4096x32 : S4096x128.Slices ![0, 96] S4096x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  reduces_S4096x16_S4096 : S4096x16.Reduces [1] S4096
  shapeCasts_S4096_S4096x1 : S4096.ShapeCasts S4096x1
  broadcasts_S4096x1_S4096x16 : S4096x1.Broadcasts S4096x16
  inb_S4096x16_S4096x16_0_0 : ∀ a, (![0, 0] : Fin 2 → Nat) a + S4096x16.size a ≤ S4096x16.size a
  h_S4096x16 : 0 < S4096x16.numel
  dot_S4096x8_S8x128_S4096x128_1_0_0_1_n_n_wf : DotDims.WF S4096x8 S8x128 S4096x128 [1] [0] [0] [1] [] []
  dot_S4096x32_S32x128_S4096x128_1_0_0_1_n_n_wf : DotDims.WF S4096x32 S32x128 S4096x128 [1] [0] [0] [1] [] []
  dot_S4096x32_S32x16_S4096x16_1_0_0_1_n_n_wf : DotDims.WF S4096x32 S32x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S524288x8.size a
  hwx0_0 : ∀ i : grid0.Coords, EltTy.bits .f32 = 32 ∨ (Rect.block (s := S524288x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x16.size a ≤ S32x16.size a
  hwx0_11 : ∀ i : grid0.Coords, EltTy.bits .f32 = 32 ∨ (Rect.block (s := S32x16) S32x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .f32 = 32 ∨ (Rect.block (s := S32x16) S32x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x16.size a ≤ S1x16.size a
  hwx0_16 : ∀ i : grid0.Coords, EltTy.bits .f32 = 32 ∨ (Rect.block (s := S1x16) S1x16.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4096x16.size a ≤ S524288x16.size a
  hwx0_17 : ∀ i : grid0.Coords, EltTy.bits .f32 = 32 ∨ (Rect.block (s := S524288x16) S4096x16.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S4096x16.size a ≤ S524288x16.size a
  hwx0_18 : ∀ i : grid0.Coords, EltTy.bits .f32 = 32 ∨ (Rect.block (s := S524288x16) S4096x16.size (cc0_transform_18 i) (hinb0_18 i)).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S32x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S1x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v22_0) S4096x16.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v22_1) S4096x16.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S524288x8 : Shape := ⟨2, ![524288, 8]⟩
abbrev S128x8 : Shape := ⟨2, ![128, 8]⟩
abbrev S128x32 : Shape := ⟨2, ![128, 32]⟩
abbrev S128 : Shape := ⟨1, ![128]⟩
abbrev S2x1x32 : Shape := ⟨3, ![2, 1, 32]⟩
abbrev S16x32 : Shape := ⟨2, ![16, 32]⟩
abbrev S16 : Shape := ⟨1, ![16]⟩
abbrev S2x524288x32 : Shape := ⟨3, ![2, 524288, 32]⟩
abbrev S1x524288x32 : Shape := ⟨3, ![1, 524288, 32]⟩
abbrev S524288x32 : Shape := ⟨2, ![524288, 32]⟩
abbrev S8x128 : Shape := ⟨2, ![8, 128]⟩
abbrev S524288x128 : Shape := ⟨2, ![524288, 128]⟩
abbrev S32x128 : Shape := ⟨2, ![32, 128]⟩
abbrev S1x128 : Shape := ⟨2, ![1, 128]⟩
abbrev S_ : Shape := ⟨0, ![]⟩
abbrev S32x16 : Shape := ⟨2, ![32, 16]⟩
abbrev S524288x16 : Shape := ⟨2, ![524288, 16]⟩
abbrev S1x16 : Shape := ⟨2, ![1, 16]⟩
abbrev S524288 : Shape := ⟨1, ![524288]⟩
abbrev S524288x1 : Shape := ⟨2, ![524288, 1]⟩

abbrev nBuf : Space → Nat
  | .hbm => 169
  | .vmem => 0
  | .smem => 0
  | _ => 0

abbrev hbmTy0_0 (i : Nat) : BufTy := match i % 128 with
  | 0 => ⟨S524288x8, .f32⟩
  | 1 => ⟨S128x8, .f32⟩
  | 2 => ⟨S128x32, .f32⟩
  | 3 => ⟨S128, .f32⟩
  | 4 => ⟨S128, .f32⟩
  | 5 => ⟨S128x32, .f32⟩
  | 6 => ⟨S128x32, .f32⟩
  | 7 => ⟨S128, .f32⟩
  | 8 => ⟨S128, .f32⟩
  | 9 => ⟨S2x1x32, .f32⟩
  | 10 => ⟨S2x1x32, .f32⟩
  | 11 => ⟨S16x32, .f32⟩
  | 12 => ⟨S16, .f32⟩
  | 13 => ⟨S16, .f32⟩
  | 14 => ⟨S16, .f32⟩
  | 15 => ⟨S16x32, .f32⟩
  | 16 => ⟨S16, .f32⟩
  | 17 => ⟨S2x524288x32, .f32⟩
  | 18 => ⟨S2x524288x32, .f32⟩
  | 19 => ⟨S1x524288x32, .f32⟩
  | 20 => ⟨S524288x32, .f32⟩
  | 21 => ⟨S1x524288x32, .f32⟩
  | 22 => ⟨S524288x32, .f32⟩
  | 23 => ⟨S8x128, .f32⟩
  | 24 => ⟨S524288x128, .f32⟩
  | 25 => ⟨S32x128, .f32⟩
  | 26 => ⟨S524288x128, .f32⟩
  | 27 => ⟨S524288x128, .f32⟩
  | 28 => ⟨S128, .f32⟩
  | 29 => ⟨S1x128, .f32⟩
  | 30 => ⟨S524288x128, .f32⟩
  | 31 => ⟨S524288x128, .f32⟩
  | 32 => ⟨S524288x32, .f32⟩
  | 33 => ⟨S524288x32, .f32⟩
  | 34 => ⟨S524288x32, .f32⟩
  | 35 => ⟨S524288x32, .f32⟩
  | 36 => ⟨S524288x32, .f32⟩
  | 37 => ⟨S524288x32, .f32⟩
  | 38 => ⟨S_, .f32⟩
  | 39 => ⟨S524288x32, .f32⟩
  | 40 => ⟨S524288x32, .f32⟩
  | 41 => ⟨S_, .f32⟩
  | 42 => ⟨S524288x32, .f32⟩
  | 43 => ⟨S524288x32, .f32⟩
  | 44 => ⟨S524288x32, .f32⟩
  | 45 => ⟨S524288x32, .f32⟩
  | 46 => ⟨S_, .f32⟩
  | 47 => ⟨S524288x32, .f32⟩
  | 48 => ⟨S524288x32, .f32⟩
  | 49 => ⟨S_, .f32⟩
  | 50 => ⟨S524288x32, .f32⟩
  | 51 => ⟨S524288x32, .f32⟩
  | 52 => ⟨S524288x32, .f32⟩
  | 53 => ⟨S524288x32, .f32⟩
  | 54 => ⟨S_, .f32⟩
  | 55 => ⟨S524288x32, .f32⟩
  | 56 => ⟨S524288x32, .f32⟩
  | 57 => ⟨S_, .f32⟩
  | 58 => ⟨S524288x32, .f32⟩
  | 59 => ⟨S524288x32, .f32⟩
  | 60 => ⟨S524288x32, .f32⟩
  | 61 => ⟨S524288x32, .f32⟩
  | 62 => ⟨S524288x32, .f32⟩
  | 63 => ⟨S524288x32, .f32⟩
  | 64 => ⟨S524288x32, .f32⟩
  | 65 => ⟨S524288x32, .f32⟩
  | 66 => ⟨S1x524288x32, .f32⟩
  | 67 => ⟨S524288x32, .f32⟩
  | 68 => ⟨S1x524288x32, .f32⟩
  | 69 => ⟨S524288x32, .f32⟩
  | 70 => ⟨S32x128, .f32⟩
  | 71 => ⟨S524288x128, .f32⟩
  | 72 => ⟨S32x128, .f32⟩
  | 73 => ⟨S524288x128, .f32⟩
  | 74 => ⟨S524288x128, .f32⟩
  | 75 => ⟨S128, .f32⟩
  | 76 => ⟨S1x128, .f32⟩
  | 77 => ⟨S524288x128, .f32⟩
  | 78 => ⟨S524288x128, .f32⟩
  | 79 => ⟨S524288x32, .f32⟩
  | 80 => ⟨S524288x32, .f32⟩
  | 81 => ⟨S524288x32, .f32⟩
  | 82 => ⟨S524288x32, .f32⟩
  | 83 => ⟨S524288x32, .f32⟩
  | 84 => ⟨S524288x32, .f32⟩
  | 85 => ⟨S_, .f32⟩
  | 86 => ⟨S524288x32, .f32⟩
  | 87 => ⟨S524288x32, .f32⟩
  | 88 => ⟨S_, .f32⟩
  | 89 => ⟨S524288x32, .f32⟩
  | 90 => ⟨S524288x32, .f32⟩
  | 91 => ⟨S524288x32, .f32⟩
  | 92 => ⟨S524288x32, .f32⟩
  | 93 => ⟨S_, .f32⟩
  | 94 => ⟨S524288x32, .f32⟩
  | 95 => ⟨S524288x32, .f32⟩
  | 96 => ⟨S_, .f32⟩
  | 97 => ⟨S524288x32, .f32⟩
  | 98 => ⟨S524288x32, .f32⟩
  | 99 => ⟨S524288x32, .f32⟩
  | 100 => ⟨S524288x32, .f32⟩
  | 101 => ⟨S_, .f32⟩
  | 102 => ⟨S524288x32, .f32⟩
  | 103 => ⟨S524288x32, .f32⟩
  | 104 => ⟨S_, .f32⟩
  | 105 => ⟨S524288x32, .f32⟩
  | 106 => ⟨S524288x32, .f32⟩
  | 107 => ⟨S524288x32, .f32⟩
  | 108 => ⟨S524288x32, .f32⟩
  | 109 => ⟨S524288x32, .f32⟩
  | 110 => ⟨S524288x32, .f32⟩
  | 111 => ⟨S524288x32, .f32⟩
  | 112 => ⟨S524288x32, .f32⟩
  | 113 => ⟨S32x16, .f32⟩
  | 114 => ⟨S524288x16, .f32⟩
  | 115 => ⟨S1x16, .f32⟩
  | 116 => ⟨S524288x16, .f32⟩
  | 117 => ⟨S524288x16, .f32⟩
  | 118 => ⟨S_, .f32⟩
  | 119 => ⟨S524288, .f32⟩
  | 120 => ⟨S524288x1, .f32⟩
  | 121 => ⟨S_, .f32⟩
  | 122 => ⟨S524288x1, .f32⟩
  | 123 => ⟨S524288x1, .f32⟩
  | 124 => ⟨S524288x16, .f32⟩
  | 125 => ⟨S524288x16, .f32⟩
  | 126 => ⟨S524288x16, .f32⟩
  | 127 => ⟨S_, .f32⟩
  | _ => ⟨S524288x8, .f32⟩

abbrev hbmTy0_1 (i : Nat) : BufTy := match i % 128 with
  | 0 => ⟨S524288, .f32⟩
  | 1 => ⟨S524288x1, .f32⟩
  | 2 => ⟨S_, .f32⟩
  | 3 => ⟨S524288x1, .f32⟩
  | 4 => ⟨S524288x1, .f32⟩
  | 5 => ⟨S524288x16, .f32⟩
  | 6 => ⟨S524288x16, .f32⟩
  | 7 => ⟨S_, .f32⟩
  | 8 => ⟨S524288x1, .f32⟩
  | 9 => ⟨S524288x1, .f32⟩
  | 10 => ⟨S524288x1, .f32⟩
  | 11 => ⟨S524288x16, .f32⟩
  | 12 => ⟨S524288x16, .f32⟩
  | 13 => ⟨S1x16, .f32⟩
  | 14 => ⟨S524288x16, .f32⟩
  | 15 => ⟨S524288x16, .f32⟩
  | 16 => ⟨S1x16, .f32⟩
  | 17 => ⟨S524288x16, .f32⟩
  | 18 => ⟨S524288x16, .f32⟩
  | 19 => ⟨S32x16, .f32⟩
  | 20 => ⟨S524288x16, .f32⟩
  | 21 => ⟨S1x16, .f32⟩
  | 22 => ⟨S524288x16, .f32⟩
  | 23 => ⟨S524288x16, .f32⟩
  | 24 => ⟨S_, .f32⟩
  | 25 => ⟨S524288x16, .f32⟩
  | 26 => ⟨S524288x16, .f32⟩
  | 27 => ⟨S524288x16, .f32⟩
  | 28 => ⟨S524288x16, .f32⟩
  | 29 => ⟨S524288x16, .i1⟩
  | 30 => ⟨S524288x16, .f32⟩
  | 31 => ⟨S524288x16, .f32⟩
  | 32 => ⟨S524288x16, .f32⟩
  | 33 => ⟨S524288x16, .f32⟩
  | 34 => ⟨S524288x16, .f32⟩
  | 35 => ⟨S524288x16, .f32⟩
  | 36 => ⟨S524288x16, .f32⟩
  | 37 => ⟨S524288x16, .f32⟩
  | 38 => ⟨S_, .f32⟩
  | 39 => ⟨S524288x16, .f32⟩
  | 40 => ⟨S524288x16, .f32⟩
  | _ => ⟨S524288x8, .f32⟩

abbrev hbmTy (i : Nat) : BufTy := match i / 128 with
  | 0 => hbmTy0_0 i
  | 1 => hbmTy0_1 i
  | _ => ⟨S524288x8, .f32⟩

abbrev bufTy : (tb : Table) → Fin (tcTables nBuf tb) → BufTy
  | .hbm, ⟨i, _⟩ => hbmTy i
  | _, _ => ⟨S524288x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_cst_10 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_11 : Ref sig .tc := ⟨.hbm, 118, rfl⟩
abbrev main_v89 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_cst_14 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_15 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_call0_cst : Ref sig .tc := ⟨.hbm, 152, rfl⟩
abbrev main_call0_v0 : Ref sig .tc := ⟨.hbm, 153, rfl⟩
abbrev main_call0_v1 : Ref sig .tc := ⟨.hbm, 154, rfl⟩
abbrev main_call0_v2 : Ref sig .tc := ⟨.hbm, 155, rfl⟩
abbrev main_call0_v3 : Ref sig .tc := ⟨.hbm, 156, rfl⟩
abbrev main_call0_v4 : Ref sig .tc := ⟨.hbm, 157, rfl⟩
abbrev main_call0_v5 : Ref sig .tc := ⟨.hbm, 158, rfl⟩
abbrev main_call0_v6 : Ref sig .tc := ⟨.hbm, 159, rfl⟩
abbrev main_call0_v7 : Ref sig .tc := ⟨.hbm, 160, rfl⟩
abbrev main_call0_v8 : Ref sig .tc := ⟨.hbm, 161, rfl⟩
abbrev main_call0_v9 : Ref sig .tc := ⟨.hbm, 162, rfl⟩
abbrev main_call0_v10 : Ref sig .tc := ⟨.hbm, 163, rfl⟩
abbrev main_call0_v11 : Ref sig .tc := ⟨.hbm, 164, rfl⟩
abbrev main_v118 : Ref sig .tc := ⟨.hbm, 165, rfl⟩
abbrev main_cst_16 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  bcast_S2x1x32_S2x524288x32_0_1_2 : S2x1x32.BroadcastsInDim S2x524288x32 (![0, 1, 2] : Fin 3 → Fin S2x524288x32.rank)
  slices_S2x524288x32_S1x524288x32_0_0_0 : S2x524288x32.Slices ![0, 0, 0] S1x524288x32
  shapeCasts_S1x524288x32_S524288x32 : S1x524288x32.ShapeCasts S524288x32
  transposes_S128x8_S8x128_1_0 : S128x8.Transposes [1, 0] S8x128
  transposes_S128x32_S32x128_1_0 : S128x32.Transposes [1, 0] S32x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  slices_S524288x128_S524288x32_0_0 : S524288x128.Slices ![0, 0] S524288x32
  slices_S524288x128_S524288x32_0_32 : S524288x128.Slices ![0, 32] S524288x32
  slices_S524288x128_S524288x32_0_64 : S524288x128.Slices ![0, 64] S524288x32
  slices_S524288x128_S524288x32_0_96 : S524288x128.Slices ![0, 96] S524288x32
  bcast_S_S524288x32 : S_.BroadcastsInDim S524288x32 (![] : Fin 0 → Fin S524288x32.rank)
  slices_S2x524288x32_S1x524288x32_1_0_0 : S2x524288x32.Slices ![1, 0, 0] S1x524288x32
  transposes_S16x32_S32x16_1_0 : S16x32.Transposes [1, 0] S32x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  reducesTo_S524288x16_S524288_d1 : S524288x16.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x16_0_1 : S524288x1.BroadcastsInDim S524288x16 (![0, 1] : Fin 2 → Fin S524288x16.rank)
  bcast_S_S524288x16 : S_.BroadcastsInDim S524288x16 (![] : Fin 0 → Fin S524288x16.rank)
  dot_S524288x8_S8x128_S524288x128_1_0_0_1_n_n_wf : DotDims.WF S524288x8 S8x128 S524288x128 [1] [0] [0] [1] [] []
  dot_S524288x32_S32x128_S524288x128_1_0_0_1_n_n_wf : DotDims.WF S524288x32 S32x128 S524288x128 [1] [0] [0] [1] [] []
  dot_S524288x32_S32x16_S524288x16_1_0_0_1_n_n_wf : DotDims.WF S524288x32 S32x16 S524288x16 [1] [0] [0] [1] [] []

variable [Facts₀]

def dot_S524288x8_S8x128_S524288x128_1_0_0_1_n_n : DotDims S524288x8 S8x128 S524288x128 where
  lhsContracting := [1]
  rhsContracting := [0]
  lhsNonContracting := [0]
  rhsNonContracting := [1]
  lhsBatch := []
  rhsBatch := []
  wf := dot_S524288x8_S8x128_S524288x128_1_0_0_1_n_n_wf
def dot_S524288x32_S32x128_S524288x128_1_0_0_1_n_n : DotDims S524288x32 S32x128 S524288x128 where
  lhsContracting := [1]
  rhsContracting := [0]
  lhsNonContracting := [0]
  rhsNonContracting := [1]
  lhsBatch := []
  rhsBatch := []
  wf := dot_S524288x32_S32x128_S524288x128_1_0_0_1_n_n_wf
def dot_S524288x32_S32x16_S524288x16_1_0_0_1_n_n : DotDims S524288x32 S32x16 S524288x16 where
  lhsContracting := [1]
  rhsContracting := [0]
  lhsNonContracting := [0]
  rhsNonContracting := [1]
  lhsBatch := []
  rhsBatch := []
  wf := dot_S524288x32_S32x16_S524288x16_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibRowOps.lean ====
/-
  Row tiles of a batch, read at an index, at the ideal values.

  A kernel that works on a tile of rows builds its values from a few operations whose element at `(p, q)` depends only
  on row `p` of the operands: the matrix unit's product of two f32 operands into zeros (the textbook sum, at any
  precision attribute), pointwise transcendental functions, a sum along the row kept as a column `[a, 1]`, and that
  column spread back over the row. Each is read here at an index built from its coordinates. Nothing depends on the sizes.
-/
import Idealize.ShloMosaic.Lib.ValueIdx
import Idealize.ShloMosaic.Lib.ValueLayout
import Idealize.ShloMosaic.Lib.Pipeline.Value
import Idealize.ShloMosaic.PureOps.Ideal.Laws
import proofs.«134364_j54992761258656_1_alg».proof.Proof.LibAffineRows

noncomputable section

namespace Cert.Lib

open Idealize.ShloMosaic Idealize.ShloMosaic.ValueIdx

variable {R K M : ℕ}

/-- A matrix unit's product of two f32 operands into zeros, at `(r, c)`: the sum over the contracted index, whatever the
    precision attribute says (over the extended reals nothing is rounded). -/
theorem matmul_f32_zero_apply {d : DotDims ⟨2, ![R, K]⟩ ⟨2, ![K, M]⟩ ⟨2, ![R, M]⟩} (h : PlainDot d)
    (prec : Option ContractPrecision) (x : FVec Ideal ⟨2, ![R, K]⟩ .f32) (w : FVec Ideal ⟨2, ![K, M]⟩ .f32)
    (r : Fin R) (c : Fin M) :
    matmul d prec x w (constant ⟨2, ![R, M]⟩ .f32 0x00000000#32) (ix2 r c) = ∑ k : Fin K, x (ix2 r k) * w (ix2 k c) := by
  simp only [matmul]
  rw [Ideal.matmul_constant_zero_apply]
  exact h.sum_eq (fun i => x i) (fun i => w i) r c

section Pointwise

variable {s : Shape} {φ : FTy}

theorem logistic_apply (a : FVec Ideal s φ) (i : s.Idx) : logistic a i = Ideal.logistic (a i) := rfl
theorem tanh_apply (a : FVec Ideal s φ) (i : s.Idx) : tanh a i = Ideal.tanh (a i) := rfl
theorem rsqrt_apply (a : FVec Ideal s φ) (i : s.Idx) : rsqrt a i = Ideal.rsqrt (a i) := rfl
theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = max (a i) (-(a i)) := rfl

end Pointwise

/-- The sum along each row of an `[a, b]` array, at row `p`: the sum over the row's `b` entries. -/
theorem rowSum_apply {a b : ℕ} (v : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) := by
  refine (Ideal.multiReduction_add_single v acc h hφ hacc (ix1 p)).trans ?_
  refine Finset.sum_congr rfl fun k _ => congrArg v (funext fun c => Fin.ext ?_)
  rw [Shape.Reduces.lift_val]
  match c with
  | ⟨0, _⟩ => rfl
  | ⟨1, _⟩ => rfl

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelDots.lean ====
/-
  The kernel's three matrix products are plain ones: a `[4096, K]` tile times a resident `[K, M]` matrix, contracting
  the tile's columns with the matrix's rows, for `(K, M)` = (8, 128), (32, 128) and (32, 16).
-/
import proofs.«134364_j54992761258656_1_alg».proof.Proof.Gen.KernelIdeal
import proofs.«134364_j54992761258656_1_alg».proof.Proof.LibRowOps

noncomputable section

namespace Cert.KernelIdeal.Tile

open Cert.KernelIdeal Idealize.ShloMosaic Cert.Lib

/-- `dot_S4096x8_S8x128_S4096x128_1_0_0_1_n_n` is the plain product of a tile by a resident weight matrix. -/
theorem plain_8_128 : PlainDot dot_S4096x8_S8x128_S4096x128_1_0_0_1_n_n where
  rank := rfl
  size := rfl
  l0 := fun i q => by
    unfold DotDims.lhsIdx
    rw [dif_neg (show ¬(0 : Fin S4096x8.rank) ∈ dot_S4096x8_S8x128_S4096x128_1_0_0_1_n_n.lhsBatch by decide), dif_pos (show (0 : Fin S4096x8.rank) ∈ dot_S4096x8_S8x128_S4096x128_1_0_0_1_n_n.lhsNonContracting by decide)]
    rfl
  l1 := fun i q => dot_S4096x8_S8x128_S4096x128_1_0_0_1_n_n.lhsIdx_val_of_single rfl i q
  r0 := fun i q => dot_S4096x8_S8x128_S4096x128_1_0_0_1_n_n.rhsIdx_val_of_single rfl i q
  r1 := fun i q => by
    unfold DotDims.rhsIdx
    rw [dif_neg (show ¬(1 : Fin S8x128.rank) ∈ dot_S4096x8_S8x128_S4096x128_1_0_0_1_n_n.rhsBatch by decide), dif_pos (show (1 : Fin S8x128.rank) ∈ dot_S4096x8_S8x128_S4096x128_1_0_0_1_n_n.rhsNonContracting by decide)]
    rfl

/-- `dot_S4096x32_S32x128_S4096x128_1_0_0_1_n_n` is the plain product of a tile by a resident weight matrix. -/
theorem plain_32_128 : PlainDot dot_S4096x32_S32x128_S4096x128_1_0_0_1_n_n where
  rank := rfl
  size := rfl
  l0 := fun i q => by
    unfold DotDims.lhsIdx
    rw [dif_neg (show ¬(0 : Fin S4096x32.rank) ∈ dot_S4096x32_S32x128_S4096x128_1_0_0_1_n_n.lhsBatch by decide), dif_pos (show (0 : Fin S4096x32.rank) ∈ dot_S4096x32_S32x128_S4096x128_1_0_0_1_n_n.lhsNonContracting by decide)]
    rfl
  l1 := fun i q => dot_S4096x32_S32x128_S4096x128_1_0_0_1_n_n.lhsIdx_val_of_single rfl i q
  r0 := fun i q => dot_S4096x32_S32x128_S4096x128_1_0_0_1_n_n.rhsIdx_val_of_single rfl i q
  r1 := fun i q => by
    unfold DotDims.rhsIdx
    rw [dif_neg (show ¬(1 : Fin S32x128.rank) ∈ dot_S4096x32_S32x128_S4096x128_1_0_0_1_n_n.rhsBatch by decide), dif_pos (show (1 : Fin S32x128.rank) ∈ dot_S4096x32_S32x128_S4096x128_1_0_0_1_n_n.rhsNonContracting by decide)]
    rfl

/-- `dot_S4096x32_S32x16_S4096x16_1_0_0_1_n_n` is the plain product of a tile by a resident weight matrix. -/
theorem plain_32_16 : PlainDot dot_S4096x32_S32x16_S4096x16_1_0_0_1_n_n where
  rank := rfl
  size := rfl
  l0 := fun i q => by
    unfold DotDims.lhsIdx
    rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
    rfl
  l1 := fun i q => dot_S4096x32_S32x16_S4096x16_1_0_0_1_n_n.lhsIdx_val_of_single rfl i q
  r0 := fun i q => dot_S4096x32_S32x16_S4096x16_1_0_0_1_n_n.rhsIdx_val_of_single rfl i q
  r1 := fun i q => by
    unfold DotDims.rhsIdx
    rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
    rfl

end Cert.KernelIdeal.Tile

end
-- ==== Proof.Net.lean ====
/-
  The network on ONE input row, over the extended reals.

  Two stacked LSTM cells applied for a single time step (each from a fixed initial hidden and cell state), then two
  heads on the second cell's hidden vector: a linear map followed by a layer normalisation over its 16 outputs, and a
  linear map followed by softplus plus a small constant. Every function below takes the row and the parameters as plain
  functions of `Fin` indices, so that a tile of rows and the whole batch can both be read against them.

  Weights are taken in the orientation in which they are contracted: `Wx k j` multiplies input coordinate `k` into
  pre-activation `j`.
-/
import Idealize.ShloMosaic.PureOps.Ideal
import Idealize.ShloMosaic.PureOps.Ideal.Laws

noncomputable section

namespace Cert.Net

open Idealize.ShloMosaic

/-- The 128 pre-activations of a cell: input row times input weights, plus hidden state times recurrent weights, plus
    the bias. -/
def gates {K : ℕ} (x : Fin K → EReal) (h : Fin 32 → EReal) (Wx : Fin K → Fin 128 → EReal)
    (Wh : Fin 32 → Fin 128 → EReal) (b : Fin 128 → EReal) (j : Fin 128) : EReal :=
  (∑ k, x k * Wx k j) + (∑ k, h k * Wh k j) + b j

/-- Where the input, forget, candidate and output pre-activations of hidden unit `q` sit among the 128. -/
def posI (q : Fin 32) : Fin 128 := ⟨q.val, by omega⟩
def posF (q : Fin 32) : Fin 128 := ⟨32 + q.val, by omega⟩
def posG (q : Fin 32) : Fin 128 := ⟨64 + q.val, by omega⟩
def posO (q : Fin 32) : Fin 128 := ⟨96 + q.val, by omega⟩

/-- The new hidden state of a cell from its pre-activations `g` and the previous cell state `c`:
    `σ(o) · tanh (σ(f) · c + σ(i) · tanh g)`. -/
def hidden (g : Fin 128 → EReal) (c : Fin 32 → EReal) (q : Fin 32) : EReal :=
  Ideal.logistic (g (posO q)) *
    Ideal.tanh (Ideal.logistic (g (posF q)) * c q + Ideal.logistic (g (posI q)) * Ideal.tanh (g (posG q)))

/-- A linear head: `f · W + b`. -/
def lin (f : Fin 32 → EReal) (W : Fin 32 → Fin 16 → EReal) (b : Fin 16 → EReal) (q : Fin 16) : EReal :=
  (∑ k, f k * W k q) + b q

/-- The constants, as the binary32 words both programs carry. -/
def sixteen : EReal := Ideal.ofBits .f32 0x41800000#32
def epsNorm : EReal := Ideal.ofBits .f32 0x3727C5AC#32
def epsSoft : EReal := Ideal.ofBits .f32 0x358637BD#32

/-- The mean of 16 values: their sum divided by sixteen. -/
def mean16 (v : Fin 16 → EReal) : EReal := Ideal.div (∑ k, v k) sixteen

/-- The mean of the squared deviations from the mean. -/
def var16 (v : Fin 16 → EReal) : EReal := mean16 fun k => (v k - mean16 v) * (v k - mean16 v)

/-- Layer normalisation with gain `g` and shift `b`. -/
def layerNorm (v g b : Fin 16 → EReal) (q : Fin 16) : EReal :=
  (v q - mean16 v) * Ideal.rsqrt (var16 v + epsNorm) * g q + b q

/-- Softplus in its stable form, `max s 0 + log (1 + e^{-|s|})`, then the small constant. -/
def softplusEps (s : EReal) : EReal :=
  max s 0 + Ideal.log1p (Ideal.exp (-(max s (-s)))) + epsSoft

/-- Everything the network holds besides its input row, each weight in the orientation in which it is contracted:
    the two cells' initial hidden and cell states, input and recurrent weights and (already summed) biases, the
    normalised head's weights, bias, gain and shift, and the softplus head's weights and bias. -/
structure Params where
  h0 : Fin 32 → EReal
  c0 : Fin 32 → EReal
  Wx0 : Fin 8 → Fin 128 → EReal
  Wh0 : Fin 32 → Fin 128 → EReal
  b0 : Fin 128 → EReal
  h1 : Fin 32 → EReal
  c1 : Fin 32 → EReal
  Wx1 : Fin 32 → Fin 128 → EReal
  Wh1 : Fin 32 → Fin 128 → EReal
  b1 : Fin 128 → EReal
  Wm : Fin 32 → Fin 16 → EReal
  bm : Fin 16 → EReal
  gain : Fin 16 → EReal
  shift : Fin 16 → EReal
  Ws : Fin 32 → Fin 16 → EReal
  bs : Fin 16 → EReal

/-- The second cell's hidden vector for the input row `x`: the first cell's hidden vector is the second cell's input. -/
def features (P : Params) (x : Fin 8 → EReal) : Fin 32 → EReal :=
  hidden (gates (hidden (gates x P.h0 P.Wx0 P.Wh0 P.b0) P.c0) P.h1 P.Wx1 P.Wh1 P.b1) P.c1

/-- The normalised head's output for the input row `x`. -/
def mu (P : Params) (x : Fin 8 → EReal) (q : Fin 16) : EReal :=
  layerNorm (lin (features P x) P.Wm P.bm) P.gain P.shift q

/-- The softplus head's output for the input row `x`. -/
def sigma (P : Params) (x : Fin 8 → EReal) (q : Fin 16) : EReal :=
  softplusEps (lin (features P x) P.Ws P.bs q)

/-! ## Small facts about the extended reals and the constants -/

theorem sub_zero' (a : EReal) : a - 0 = a := by rw [sub_eq_add_neg, neg_zero, add_zero]
theorem zero_sub' (a : EReal) : (0 : EReal) - a = -a := by rw [sub_eq_add_neg, zero_add]

/-- The binary32 word of 1.0 is the extended real 1. -/
theorem ofBits_one : Ideal.ofBits .f32 0x3F800000#32 = 1 := by
  simp [Ideal.ofBits, Ideal.ieee, -EReal.coe_mul] <;> norm_num

/-- An extended real is never different from itself, whichever of the two "not equal" tests asks. -/
theorem cmp_one_self (a : EReal) : Ideal.cmp .one a a = 0#1 := by simp [Ideal.cmp]
theorem cmp_une_self (a : EReal) : Ideal.cmp .une a a = 0#1 := by simp [Ideal.cmp]

end Cert.Net

end
-- ==== Proof.KernelCells.lean ====
/-
  The kernel's two cells on a tile of rows.

  Row `p` of each cell's hidden-state block depends only on row `p` of the cell's input block and on the resident
  parameter blocks: it is `Net.hidden` of `Net.gates` of that row. The first cell's recurrent input and previous cell
  state are single rows spread over the tile; the second cell receives them already spread.
-/
import proofs.«134364_j54992761258656_1_alg».proof.Proof.Gen.KernelIdeal.Skeleton
import proofs.«134364_j54992761258656_1_alg».proof.Proof.KernelDots
import proofs.«134364_j54992761258656_1_alg».proof.Proof.Net

noncomputable section

namespace Cert.KernelIdeal.Tile

open Cert.KernelIdeal Cert.KernelIdeal.Gen Idealize.ShloMosaic Idealize.ShloMosaic.ValueIdx Cert.Lib

/-- A one-row block, cast twice to its own shape and then spread over the tile, reads at `(p, k)` the row at `k`. -/
private theorem spread_apply (v : FVec Ideal S1x32 .f32) (h1 h2 : S1x32.ShapeCasts S1x32)
    (hb : S1x32.Broadcasts S4096x32) (p : Fin 4096) (k : Fin 32) :
    broadcastTo S4096x32 (shapeCast S1x32 (shapeCast S1x32 v h1) h2) hb (ix2 p k) = v (ix2 (0 : Fin 1) k) := by
  rw [shapeCast_self, shapeCast_self]
  exact broadcastTo_1b_ab_apply v hb p k

/-- The pre-activation block: two products into zeros plus a bias row spread over the tile. At `(p, j)` it is the
    `j`-th pre-activation of row `p` of the two left operands. -/
private theorem gates_apply {K : ℕ} {d1 : DotDims ⟨2, ![4096, K]⟩ ⟨2, ![K, 128]⟩ ⟨2, ![4096, 128]⟩} (h1 : PlainDot d1)
    {d2 : DotDims ⟨2, ![4096, 32]⟩ ⟨2, ![32, 128]⟩ ⟨2, ![4096, 128]⟩} (h2 : PlainDot d2)
    (pr1 pr2 : Option ContractPrecision) (x : FVec Ideal ⟨2, ![4096, K]⟩ .f32) (h : FVec Ideal ⟨2, ![4096, 32]⟩ .f32)
    (wx : FVec Ideal ⟨2, ![K, 128]⟩ .f32) (wh : FVec Ideal ⟨2, ![32, 128]⟩ .f32) (b : FVec Ideal ⟨2, ![1, 128]⟩ .f32)
    (hb : (⟨2, ![1, 128]⟩ : Shape).Broadcasts ⟨2, ![4096, 128]⟩) (p : Fin 4096) (j : Fin 128) :
    addf (addf (matmul d1 pr1 x wx (constant ⟨2, ![4096, 128]⟩ .f32 0x00000000#32))
          (matmul d2 pr2 h wh (constant ⟨2, ![4096, 128]⟩ .f32 0x00000000#32)))
        (broadcastTo ⟨2, ![4096, 128]⟩ b hb) (ix2 p j)
      = Net.gates (fun k => x (ix2 p k)) (fun k => h (ix2 p k)) (fun k j => wx (ix2 k j)) (fun k j => wh (ix2 k j))
          (fun j => b (ix2 (0 : Fin 1) j)) j := by
  rw [addf_apply, addf_apply, matmul_f32_zero_apply h1, matmul_f32_zero_apply h2, broadcastTo_1b_ab_apply]
  rfl

/-- The cell update from a pre-activation block `g` and a previous cell-state block `c`: the four gates are the column
    ranges of `g` from 0, 32, 64 and 96, so at `(p, q)` the update is `Net.hidden` of row `p` of `g` and of `c`. -/
private theorem cell_apply (g : FVec Ideal ⟨2, ![4096, 128]⟩ .f32) (c : FVec Ideal ⟨2, ![4096, 32]⟩ .f32)
    (s0 : (⟨2, ![4096, 128]⟩ : Shape).Slices ![0, 0] ⟨2, ![4096, 32]⟩)
    (s32 : (⟨2, ![4096, 128]⟩ : Shape).Slices ![0, 32] ⟨2, ![4096, 32]⟩)
    (s64 : (⟨2, ![4096, 128]⟩ : Shape).Slices ![0, 64] ⟨2, ![4096, 32]⟩)
    (s96 : (⟨2, ![4096, 128]⟩ : Shape).Slices ![0, 96] ⟨2, ![4096, 32]⟩) (p : Fin 4096) (q : Fin 32) :
    mulf (logistic (extractStridedSlice ⟨2, ![4096, 32]⟩ ![0, 96] g s96))
        (tanh (addf (mulf (logistic (extractStridedSlice ⟨2, ![4096, 32]⟩ ![0, 32] g s32)) c)
          (mulf (logistic (extractStridedSlice ⟨2, ![4096, 32]⟩ ![0, 0] g s0))
            (tanh (extractStridedSlice ⟨2, ![4096, 32]⟩ ![0, 64] g s64))))) (ix2 p q)
      = Net.hidden (fun j => g (ix2 p j)) (fun k => c (ix2 p k)) q := by
  rw [mulf_apply, logistic_apply, tanh_apply, addf_apply, mulf_apply, mulf_apply, logistic_apply, logistic_apply,
    tanh_apply, slice2_axis1_apply 96 g s96 p q (Net.posO q) rfl, slice2_axis1_apply 32 g s32 p q (Net.posF q) rfl,
    slice2_axis1_apply 64 g s64 p q (Net.posG q) rfl, slice2_axis1_apply 0 g s0 p q (Net.posI q) (Nat.zero_add _).symm]
  rfl

/-- A single row spread over the tile reads, at `(p, k)`, the row at `k`. -/
theorem pay2_apply (v33 : FVec Ideal S1x32 .f32) (p : Fin 4096) (k : Fin 32) :
    k0_pay2 (F := Ideal) v33 (ix2 p k) = v33 (ix2 (0 : Fin 1) k) := by
  unfold k0_pay2
  exact spread_apply v33 _ _ _ p k

theorem pay3_apply (v37 : FVec Ideal S1x32 .f32) (p : Fin 4096) (k : Fin 32) :
    k0_pay3 (F := Ideal) v37 (ix2 p k) = v37 (ix2 (0 : Fin 1) k) := by
  unfold k0_pay3
  exact spread_apply v37 _ _ _ p k

/-- The first cell's hidden state at `(p, q)`. -/
theorem pay1_apply (v0 : FVec Ideal S4096x8 .f32) (v1 v5 : FVec Ideal S1x32 .f32) (v9 : FVec Ideal S8x128 .f32)
    (v12 : FVec Ideal S32x128 .f32) (v16 : FVec Ideal S1x128 .f32) (p : Fin 4096) (q : Fin 32) :
    k0_pay1 (F := Ideal) v0 v1 v5 v9 v12 v16 (ix2 p q)
      = Net.hidden (Net.gates (fun k => v0 (ix2 p k)) (fun k => v1 (ix2 (0 : Fin 1) k)) (fun k j => v9 (ix2 k j))
          (fun k j => v12 (ix2 k j)) (fun j => v16 (ix2 (0 : Fin 1) j))) (fun k => v5 (ix2 (0 : Fin 1) k)) q := by
  unfold k0_pay1
  refine (cell_apply _ _ _ _ _ _ p q).trans ?_
  refine congrArg₂ (fun g c => Net.hidden g c q) (funext fun j => ?_) (funext fun k => ?_)
  · refine (gates_apply plain_8_128 plain_32_128 _ _ _ _ _ _ _ _ p j).trans ?_
    simp only [shapeCast_self, broadcastTo_1b_ab_apply]
  · exact spread_apply v5 _ _ _ p k

/-- The second cell's hidden state at `(p, q)`. -/
theorem pay4_apply (v32 v36 v40 : FVec Ideal S4096x32 .f32) (v41 v44 : FVec Ideal S32x128 .f32)
    (v48 : FVec Ideal S1x128 .f32) (p : Fin 4096) (q : Fin 32) :
    k0_pay4 (F := Ideal) v32 v36 v40 v41 v44 v48 (ix2 p q)
      = Net.hidden (Net.gates (fun k => v32 (ix2 p k)) (fun k => v36 (ix2 p k)) (fun k j => v41 (ix2 k j))
          (fun k j => v44 (ix2 k j)) (fun j => v48 (ix2 (0 : Fin 1) j))) (fun k => v40 (ix2 p k)) q := by
  unfold k0_pay4
  refine (cell_apply _ _ _ _ _ _ p q).trans ?_
  refine congrArg₂ (fun g c => Net.hidden g c q) (funext fun j => ?_) rfl
  refine (gates_apply plain_32_128 plain_32_128 _ _ _ _ _ _ _ _ p j).trans ?_
  simp only [shapeCast_self]

end Cert.KernelIdeal.Tile

end
-- ==== Proof.KernelHeads.lean ====
/-
  The kernel's two heads on a tile of rows.

  From the second cell's hidden-state block: a linear map; its row mean and the row mean of the squared deviations, kept
  as columns and spread back over the row; the normalised, scaled and shifted result; and, from the same hidden-state
  block, a second linear map put through the stable softplus plus a small constant. Each is read at `(p, q)` from row `p`.
-/
import proofs.«134364_j54992761258656_1_alg».proof.Proof.Gen.KernelIdeal.Skeleton
import proofs.«134364_j54992761258656_1_alg».proof.Proof.KernelDots
import proofs.«134364_j54992761258656_1_alg».proof.Proof.Net

noncomputable section

namespace Cert.KernelIdeal.Tile

open Cert.KernelIdeal Cert.KernelIdeal.Gen Idealize.ShloMosaic Idealize.ShloMosaic.ValueIdx Cert.Lib

/-- A linear head on a tile of rows: the product with the weights into zeros, plus the bias row spread over the rows,
    read at `(p, q)`, is the linear map of row `p`. -/
private theorem lin_apply (x : FVec Ideal S4096x32 .f32) (w : FVec Ideal S32x16 .f32) (b : FVec Ideal S1x16 .f32)
    (p : Fin 4096) (q : Fin 16) :
    addf (matmul dot_S4096x32_S32x16_S4096x16_1_0_0_1_n_n (some .fp32) x (shapeCast S32x16 w shapeCasts_S32x16_S32x16)
        (constant S4096x16 .f32 0x00000000#32))
      (broadcastTo S4096x16 (shapeCast S1x16 b shapeCasts_S1x16_S1x16) broadcasts_S1x16_S4096x16) (ix2 p q)
      = Net.lin (fun k => x (ix2 p k)) (fun k j => w (ix2 k j)) (fun j => b (ix2 (0 : Fin 1) j)) q := by
  rw [addf_apply, shapeCast_self, shapeCast_self, matmul_f32_zero_apply plain_32_16, broadcastTo_1b_ab_apply]
  rfl

/-- The sum along each row, kept as a column and divided by sixteen, read at `(p, u)`: the mean of row `p`. -/
private theorem rowMean_apply (a : FVec Ideal S4096x16 .f32) (p : Fin 4096) (u : Fin 1) :
    divf (shapeCast S4096x1 (multiReduction .add [1] S4096 a 0x00000000#32 reduces_S4096x16_S4096 (.inl rfl) rfl)
        shapeCasts_S4096_S4096x1) (broadcast S4096x1 (Scalar.ofBits (F := Ideal) .f32 0x41800000#32)) (ix2 p u)
      = Net.mean16 (fun k => a (ix2 p k)) := by
  rw [divf_apply, shapeCast_a_a1_apply, broadcast_apply]
  exact congrArg (fun s => Ideal.div s Net.sixteen) (rowSum_apply a _ _ _ _ p)

/-- The stable softplus of a tile, entry by entry: the test "`s − 0` differs from itself" never holds over the extended
    reals, so the selected branch is `max s 0 + log (1 + e^{0 − |s − 0|})`; and `s − 0 = s`, `0 − y = −y`. -/
private theorem softplus_apply (A : FVec Ideal S4096x16 .f32) (i : S4096x16.Idx) :
    addf
        (select
          (cmpf .one (subf A (broadcast S4096x16 (Scalar.ofBits (F := Ideal) .f32 0x00000000#32)))
            (subf A (broadcast S4096x16 (Scalar.ofBits (F := Ideal) .f32 0x00000000#32))))
          (addf A (broadcast S4096x16 (Scalar.ofBits (F := Ideal) .f32 0x00000000#32)))
          (addf (maximumf A (broadcast S4096x16 (Scalar.ofBits (F := Ideal) .f32 0x00000000#32)))
            (log1p (exp (subf (broadcast S4096x16 (Scalar.ofBits (F := Ideal) .f32 0x00000000#32))
              (absf (subf A (broadcast S4096x16 (Scalar.ofBits (F := Ideal) .f32 0x00000000#32)))))))))
        (broadcast S4096x16 (Scalar.ofBits (F := Ideal) .f32 0x358637BD#32)) i
      = Net.softplusEps (A i) := by
  show Scalar.select (Ideal.cmp .one (A i - Ideal.ofBits .f32 0x00000000#32) (A i - Ideal.ofBits .f32 0x00000000#32))
        (A i + Ideal.ofBits .f32 0x00000000#32)
        (max (A i) (Ideal.ofBits .f32 0x00000000#32)
          + Ideal.log1p (Ideal.exp (Ideal.ofBits .f32 0x00000000#32
              - max (A i - Ideal.ofBits .f32 0x00000000#32) (-(A i - Ideal.ofBits .f32 0x00000000#32)))))
      + Ideal.ofBits .f32 0x358637BD#32 = _
  rw [Net.cmp_one_self, select_zero, Ideal.ofBits_zero_f32, Net.sub_zero', Net.zero_sub']
  rfl

/-- The normalised head's linear map at `(p, q)`, from row `p` of the second cell's hidden state. -/
theorem pay5_apply (v32 v36 v40 : FVec Ideal S4096x32 .f32) (v41 v44 : FVec Ideal S32x128 .f32)
    (v48 : FVec Ideal S1x128 .f32) (v65 : FVec Ideal S32x16 .f32) (v68 : FVec Ideal S1x16 .f32) (p : Fin 4096) (q : Fin 16) :
    k0_pay5 (F := Ideal) v32 v36 v40 v41 v44 v48 v65 v68 (ix2 p q)
      = Net.lin (fun k => k0_pay4 (F := Ideal) v32 v36 v40 v41 v44 v48 (ix2 p k)) (fun k j => v65 (ix2 k j))
          (fun j => v68 (ix2 (0 : Fin 1) j)) q :=
  lin_apply (k0_pay4 (F := Ideal) v32 v36 v40 v41 v44 v48) v65 v68 p q

/-- The row mean, as a column. -/
theorem pay6_apply (v32 v36 v40 : FVec Ideal S4096x32 .f32) (v41 v44 : FVec Ideal S32x128 .f32)
    (v48 : FVec Ideal S1x128 .f32) (v65 : FVec Ideal S32x16 .f32) (v68 : FVec Ideal S1x16 .f32) (p : Fin 4096) (u : Fin 1) :
    k0_pay6 (F := Ideal) v32 v36 v40 v41 v44 v48 v65 v68 (ix2 p u)
      = Net.mean16 (fun k => k0_pay5 (F := Ideal) v32 v36 v40 v41 v44 v48 v65 v68 (ix2 p k)) :=
  rowMean_apply (k0_pay5 (F := Ideal) v32 v36 v40 v41 v44 v48 v65 v68) p u

/-- The row mean of the squared deviations, as a column. -/
theorem pay7_apply (v32 v36 v40 : FVec Ideal S4096x32 .f32) (v41 v44 : FVec Ideal S32x128 .f32)
    (v48 : FVec Ideal S1x128 .f32) (v65 : FVec Ideal S32x16 .f32) (v68 : FVec Ideal S1x16 .f32) (p : Fin 4096) (u : Fin 1) :
    k0_pay7 (F := Ideal) v32 v36 v40 v41 v44 v48 v65 v68 (ix2 p u)
      = Net.var16 (fun k => k0_pay5 (F := Ideal) v32 v36 v40 v41 v44 v48 v65 v68 (ix2 p k)) := by
  unfold k0_pay7
  refine (rowMean_apply _ p u).trans ?_
  unfold Net.var16
  refine congrArg Net.mean16 (funext fun k => ?_)
  rw [mulf_apply, subf_apply, broadcastTo_a1_ab_apply, pay6_apply]

/-- The row mean spread back over the row. -/
theorem pay8_apply (v32 v36 v40 : FVec Ideal S4096x32 .f32) (v41 v44 : FVec Ideal S32x128 .f32)
    (v48 : FVec Ideal S1x128 .f32) (v65 : FVec Ideal S32x16 .f32) (v68 : FVec Ideal S1x16 .f32) (p : Fin 4096) (q : Fin 16) :
    k0_pay8 (F := Ideal) v32 v36 v40 v41 v44 v48 v65 v68 (ix2 p q)
      = Net.mean16 (fun k => k0_pay5 (F := Ideal) v32 v36 v40 v41 v44 v48 v65 v68 (ix2 p k)) := by
  unfold k0_pay8
  rw [broadcastTo_a1_ab_apply, pay6_apply]

/-- The normalised, scaled and shifted value at `(p, q)`, from the linear map's value, the spread mean, the variance
    column and the gain and shift rows. -/
theorem pay9_apply (v71 : FVec Ideal S4096x16 .f32) (v82 : FVec Ideal S4096x1 .f32) (v83 : FVec Ideal S4096x16 .f32)
    (v90 v94 : FVec Ideal S1x16 .f32) (p : Fin 4096) (q : Fin 16) :
    k0_pay9 (F := Ideal) v71 v82 v83 v90 v94 (ix2 p q)
      = (v71 (ix2 p q) - v83 (ix2 p q)) * Ideal.rsqrt (v82 (ix2 p (0 : Fin 1)) + Net.epsNorm) * v90 (ix2 (0 : Fin 1) q)
          + v94 (ix2 (0 : Fin 1) q) := by
  unfold k0_pay9
  rw [addf_apply, mulf_apply, mulf_apply, subf_apply, shapeCast_self, shapeCast_self, broadcastTo_a1_ab_apply,
    broadcastTo_1b_ab_apply, broadcastTo_1b_ab_apply]
  rfl

/-- The softplus head at `(p, q)`, from row `p` of the second cell's hidden state. -/
theorem pay10_apply (v64 : FVec Ideal S4096x32 .f32) (v98 : FVec Ideal S32x16 .f32) (v101 : FVec Ideal S1x16 .f32)
    (p : Fin 4096) (q : Fin 16) :
    k0_pay10 (F := Ideal) v64 v98 v101 (ix2 p q)
      = Net.softplusEps (Net.lin (fun k => v64 (ix2 p k)) (fun k j => v98 (ix2 k j)) (fun j => v101 (ix2 (0 : Fin 1) j)) q) := by
  unfold k0_pay10
  exact (softplus_apply _ (ix2 p q)).trans (congrArg Net.softplusEps (lin_apply v64 v98 v101 p q))

end Cert.KernelIdeal.Tile

end
-- ==== Proof.KernelTile.lean ====
/-
  What one grid point leaves in the two output blocks, row by row.

  The resident parameter blocks, read as the network's parameters (`blockParams`), and row `p` of the input tile
  determine row `p` of both output blocks: the first is `Net.mu`, the second `Net.sigma`.
-/
import proofs.«134364_j54992761258656_1_alg».proof.Proof.Gen.KernelIdeal.Frame
import proofs.«134364_j54992761258656_1_alg».proof.Proof.KernelCells
import proofs.«134364_j54992761258656_1_alg».proof.Proof.KernelHeads

noncomputable section

namespace Cert.KernelIdeal.Tile

open Cert.KernelIdeal Cert.KernelIdeal.Gen Idealize.ShloMosaic Idealize.ShloMosaic.ValueIdx Cert.Lib

/-- The network's parameters as the tile's resident blocks hold them: the weights already in contraction orientation,
    each cell's biases already summed, every vector as a one-row block. -/
def blockParams (x1 : FVec Ideal S8x128 .f32) (x2 : FVec Ideal S32x128 .f32)
    (x3 : FVec Ideal S1x128 .f32) (x4 x5 : FVec Ideal S1x32 .f32) (x6 x7 : FVec Ideal S32x128 .f32)
    (x8 : FVec Ideal S1x128 .f32) (x9 x10 : FVec Ideal S1x32 .f32) (x11 : FVec Ideal S32x16 .f32)
    (x12 x13 x14 : FVec Ideal S1x16 .f32) (x15 : FVec Ideal S32x16 .f32) (x16 : FVec Ideal S1x16 .f32) : Net.Params where
  h0 k := x4 (ix2 (0 : Fin 1) k)
  c0 k := x5 (ix2 (0 : Fin 1) k)
  Wx0 k j := x1 (ix2 k j)
  Wh0 k j := x2 (ix2 k j)
  b0 j := x3 (ix2 (0 : Fin 1) j)
  h1 k := x9 (ix2 (0 : Fin 1) k)
  c1 k := x10 (ix2 (0 : Fin 1) k)
  Wx1 k j := x6 (ix2 k j)
  Wh1 k j := x7 (ix2 k j)
  b1 j := x8 (ix2 (0 : Fin 1) j)
  Wm k q := x11 (ix2 k q)
  bm q := x12 (ix2 (0 : Fin 1) q)
  gain q := x13 (ix2 (0 : Fin 1) q)
  shift q := x14 (ix2 (0 : Fin 1) q)
  Ws k q := x15 (ix2 k q)
  bs q := x16 (ix2 (0 : Fin 1) q)

theorem zeroOffsets : (![0, 0] : Fin 2 → Nat) = fun _ => 0 := funext fun a => by fin_cases a <;> rfl

/-- Row `p` of the second cell's hidden-state block is the network's feature vector of row `p` of the input tile. -/
theorem features_row (x0 : FVec Ideal S4096x8 .f32) (x1 : FVec Ideal S8x128 .f32) (x2 : FVec Ideal S32x128 .f32)
    (x3 : FVec Ideal S1x128 .f32) (x4 x5 : FVec Ideal S1x32 .f32) (x6 x7 : FVec Ideal S32x128 .f32)
    (x8 : FVec Ideal S1x128 .f32) (x9 x10 : FVec Ideal S1x32 .f32) (x11 : FVec Ideal S32x16 .f32)
    (x12 x13 x14 : FVec Ideal S1x16 .f32) (x15 : FVec Ideal S32x16 .f32) (x16 : FVec Ideal S1x16 .f32) (p : Fin 4096) :
    (fun k => k0_pay4 (F := Ideal) (k0_pay1 (F := Ideal) x0 x4 x5 x1 x2 x3) (k0_pay2 (F := Ideal) x9) (k0_pay3 (F := Ideal) x10) x6 x7 x8 (ix2 p k))
      = Net.features (blockParams x1 x2 x3 x4 x5 x6 x7 x8 x9 x10 x11 x12 x13 x14 x15 x16) (fun k => x0 (ix2 p k)) := by
  funext q
  rw [pay4_apply]
  simp only [pay1_apply, pay2_apply, pay3_apply]
  rfl

/-- The first output block at `(p, q)`. -/
theorem out17_apply (x0 : FVec Ideal S4096x8 .f32) (x1 : FVec Ideal S8x128 .f32) (x2 : FVec Ideal S32x128 .f32)
    (x3 : FVec Ideal S1x128 .f32) (x4 x5 : FVec Ideal S1x32 .f32) (x6 x7 : FVec Ideal S32x128 .f32)
    (x8 : FVec Ideal S1x128 .f32) (x9 x10 : FVec Ideal S1x32 .f32) (x11 : FVec Ideal S32x16 .f32)
    (x12 x13 x14 : FVec Ideal S1x16 .f32) (x15 : FVec Ideal S32x16 .f32) (x16 : FVec Ideal S1x16 .f32) (p : Fin 4096) (q : Fin 16) :
    out0_17 (F := Ideal) x0 x1 x2 x3 x4 x5 x6 x7 x8 x9 x10 x11 x12 x13 x14 x15 x16 (ix2 p q)
      = Net.mu (blockParams x1 x2 x3 x4 x5 x6 x7 x8 x9 x10 x11 x12 x13 x14 x15 x16) (fun k => x0 (ix2 p k)) q := by
  unfold out0_17
  rw [View.canon_unit_zero zeroOffsets]
  simp only [View.ld_unit_zero (S := S4096x8) zeroOffsets, View.ld_unit_zero (S := S1x32) zeroOffsets,
    View.ld_unit_zero (S := S8x128) zeroOffsets, View.ld_unit_zero (S := S32x128) zeroOffsets,
    View.ld_unit_zero (S := S1x128) zeroOffsets, View.ld_unit_zero (S := S32x16) zeroOffsets,
    View.ld_unit_zero (S := S1x16) zeroOffsets]
  rw [pay9_apply, pay8_apply, pay7_apply]
  simp only [pay5_apply]
  rw [features_row x0 x1 x2 x3 x4 x5 x6 x7 x8 x9 x10 x11 x12 x13 x14 x15 x16 p]
  rfl

/-- The second output block at `(p, q)`. -/
theorem out18_apply (x0 : FVec Ideal S4096x8 .f32) (x1 : FVec Ideal S8x128 .f32) (x2 : FVec Ideal S32x128 .f32)
    (x3 : FVec Ideal S1x128 .f32) (x4 x5 : FVec Ideal S1x32 .f32) (x6 x7 : FVec Ideal S32x128 .f32)
    (x8 : FVec Ideal S1x128 .f32) (x9 x10 : FVec Ideal S1x32 .f32) (x11 : FVec Ideal S32x16 .f32)
    (x12 x13 x14 : FVec Ideal S1x16 .f32) (x15 : FVec Ideal S32x16 .f32) (x16 : FVec Ideal S1x16 .f32) (p : Fin 4096) (q : Fin 16) :
    out0_18 (F := Ideal) x0 x1 x2 x3 x4 x5 x6 x7 x8 x9 x10 x11 x12 x13 x14 x15 x16 (ix2 p q)
      = Net.sigma (blockParams x1 x2 x3 x4 x5 x6 x7 x8 x9 x10 x11 x12 x13 x14 x15 x16) (fun k => x0 (ix2 p k)) q := by
  unfold out0_18
  rw [View.canon_unit_zero zeroOffsets]
  simp only [View.ld_unit_zero (S := S4096x8) zeroOffsets, View.ld_unit_zero (S := S1x32) zeroOffsets,
    View.ld_unit_zero (S := S8x128) zeroOffsets, View.ld_unit_zero (S := S32x128) zeroOffsets,
    View.ld_unit_zero (S := S1x128) zeroOffsets, View.ld_unit_zero (S := S32x16) zeroOffsets,
    View.ld_unit_zero (S := S1x16) zeroOffsets]
  rw [pay10_apply]
  rw [features_row x0 x1 x2 x3 x4 x5 x6 x7 x8 x9 x10 x11 x12 x13 x14 x15 x16 p]
  rfl

end Cert.KernelIdeal.Tile

end
-- ==== Proof.NetArgs.lean ====
/-
  The network's parameters read out of the seventeen argument arrays, and the two result arrays as whole-array functions.

  The arguments hold the weights as `[outputs, inputs]` matrices, the two bias vectors of each cell separately, and the
  initial states as `[2, 1, 32]` (one row per cell). Row `r` of each result is the network applied to row `r` of the
  first argument.
-/
import proofs.«134364_j54992761258656_1_alg».proof.Proof.Net
import Idealize.ShloMosaic.Lib.ValueIdx

noncomputable section

namespace Cert.Net

open Idealize.ShloMosaic Idealize.ShloMosaic.ValueIdx

/-- The parameters, from the arguments: each weight matrix transposed, each cell's two biases summed, the states' rows
    picked by cell. -/
def argParams (a1 : FVec Ideal ⟨2, ![128, 8]⟩ .f32) (a2 : FVec Ideal ⟨2, ![128, 32]⟩ .f32)
    (a3 a4 : FVec Ideal ⟨1, ![128]⟩ .f32) (a5 a6 : FVec Ideal ⟨2, ![128, 32]⟩ .f32)
    (a7 a8 : FVec Ideal ⟨1, ![128]⟩ .f32) (a9 a10 : FVec Ideal ⟨3, ![2, 1, 32]⟩ .f32)
    (a11 : FVec Ideal ⟨2, ![16, 32]⟩ .f32) (a12 a13 a14 : FVec Ideal ⟨1, ![16]⟩ .f32)
    (a15 : FVec Ideal ⟨2, ![16, 32]⟩ .f32) (a16 : FVec Ideal ⟨1, ![16]⟩ .f32) : Params where
  h0 k := a9 (ix3 (0 : Fin 2) (0 : Fin 1) k)
  c0 k := a10 (ix3 (0 : Fin 2) (0 : Fin 1) k)
  Wx0 k j := a1 (ix2 j k)
  Wh0 k j := a2 (ix2 j k)
  b0 j := a3 (ix1 j) + a4 (ix1 j)
  h1 k := a9 (ix3 (1 : Fin 2) (0 : Fin 1) k)
  c1 k := a10 (ix3 (1 : Fin 2) (0 : Fin 1) k)
  Wx1 k j := a5 (ix2 j k)
  Wh1 k j := a6 (ix2 j k)
  b1 j := a7 (ix1 j) + a8 (ix1 j)
  Wm k q := a11 (ix2 q k)
  bm q := a12 (ix1 q)
  gain q := a13 (ix1 q)
  shift q := a14 (ix1 q)
  Ws k q := a15 (ix2 q k)
  bs q := a16 (ix1 q)

/-- Row `r` of the input array. -/
def inputRow (a0 : FVec Ideal ⟨2, ![524288, 8]⟩ .f32) (r : Fin 524288) : Fin 8 → EReal := fun k => a0 (ix2 r k)

/-- The first result: row by row the normalised head. -/
def muArray (P : Params) (a0 : FVec Ideal ⟨2, ![524288, 8]⟩ .f32) : FVec Ideal ⟨2, ![524288, 16]⟩ .f32 :=
  fun i => mu P (inputRow a0 (i 0)) (i 1)

/-- The second result: row by row the softplus head. -/
def sigmaArray (P : Params) (a0 : FVec Ideal ⟨2, ![524288, 8]⟩ .f32) : FVec Ideal ⟨2, ![524288, 16]⟩ .f32 :=
  fun i => sigma P (inputRow a0 (i 0)) (i 1)

end Cert.Net

end
-- ==== Proof.KernelParams.lean ====
/-
  The tile's blocks as rows of the arguments.

  Before the region the program transposes the weight matrices, adds each cell's two bias vectors and reshapes them to a
  row, slices and reshapes each cell's initial states to a row, and reshapes the heads' vectors to rows; every such array
  is staged whole at every grid point. So at any point the resident blocks, read as the network's parameters, are the
  parameters read out of the arguments. The input window's block at point `t` is rows `4096 t … 4096 t + 4095` of the
  first argument.
-/
import proofs.«134364_j54992761258656_1_alg».proof.Proof.Gen.KernelIdeal.Frame
import proofs.«134364_j54992761258656_1_alg».proof.Proof.KernelTile
import proofs.«134364_j54992761258656_1_alg».proof.Proof.NetArgs
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The parameters read out of core `c`'s argument arrays. -/
abbrev params (c : Dev nD) : Net.Params :=
  Net.argParams (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15)) (m ((c : Thread nD τ).loc main_arg16))

/-- Row `4096 t + p` of the batch, for point `t` and tile row `p`. -/
def batchRow (t : Fin cfg0.N) (p : Fin 4096) : Fin 524288 :=
  ⟨t.val * 4096 + p.val, by have ht : t.val < 128 := t.isLt; have := p.isLt; omega⟩

/-! ## Where each window's block sits

  The input window's block index at point `t` is `(t, 0)`; every other input window has the constant index `(0, 0)`.
  Each is one decided fact over the 128 grid points. -/

private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
private theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
private theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
private theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
private theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
private theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
private theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
private theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
private theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
private theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
private theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
private theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
private theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
private theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
private theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
private theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

/-! ## The staged arrays as the region finds them

  Each array a window stages was written once before the region; what it holds is that operation's value at the arguments. -/

/-- The first cell's input weights: the second argument transposed. -/
private theorem V_v0 (c : Dev nD) :
    (V m c main_v0 : S8x128.Idx → EReal)
      = transpose S8x128 [1, 0] (m ((c : Thread nD τ).loc main_arg1)) transposes_S128x8_S8x128_1_0 := by
  dsimp only [Gen.V, Gen.hostOps0]; after_results <;> rfl

/-- The first cell's recurrent weights, transposed. -/
private theorem V_v1 (c : Dev nD) :
    (V m c main_v1 : S32x128.Idx → EReal)
      = transpose S32x128 [1, 0] (m ((c : Thread nD τ).loc main_arg2)) transposes_S128x32_S32x128_1_0 := by
  dsimp only [Gen.V, Gen.hostOps0]; after_results <;> rfl

/-- The first cell's bias row: the sum of its two bias vectors, as one row. -/
private theorem V_v3 (c : Dev nD) :
    (V m c main_v3 : S1x128.Idx → EReal)
      = shapeCast S1x128 (addf (F := Ideal) (s := S128) (φ := .f32) (m ((c : Thread nD τ).loc main_arg3) : FVec Ideal S128 .f32) (m ((c : Thread nD τ).loc main_arg4)))
          shapeCasts_S128_S1x128 := by
  dsimp only [Gen.V, Gen.hostOps0]; after_results <;> rfl

/-- The first cell's initial hidden state: row 0 of the states' array, as one row. -/
private theorem V_v5 (c : Dev nD) :
    (V m c main_v5 : S1x32.Idx → EReal)
      = shapeCast S1x32 (extractStridedSlice S1x1x32 ![0, 0, 0] (m ((c : Thread nD τ).loc main_arg9)) slices_S2x1x32_S1x1x32_0_0_0)
          shapeCasts_S1x1x32_S1x32 := by
  dsimp only [Gen.V, Gen.hostOps0]; after_results <;> rfl

/-- The first cell's initial cell state. -/
private theorem V_v7 (c : Dev nD) :
    (V m c main_v7 : S1x32.Idx → EReal)
      = shapeCast S1x32 (extractStridedSlice S1x1x32 ![0, 0, 0] (m ((c : Thread nD τ).loc main_arg10)) slices_S2x1x32_S1x1x32_0_0_0)
          shapeCasts_S1x1x32_S1x32 := by
  dsimp only [Gen.V, Gen.hostOps0]; after_results <;> rfl

/-- The second cell's input weights, transposed. -/
private theorem V_v8 (c : Dev nD) :
    (V m c main_v8 : S32x128.Idx → EReal)
      = transpose S32x128 [1, 0] (m ((c : Thread nD τ).loc main_arg5)) transposes_S128x32_S32x128_1_0 := by
  dsimp only [Gen.V, Gen.hostOps0]; after_results <;> rfl

/-- The second cell's recurrent weights, transposed. -/
private theorem V_v9 (c : Dev nD) :
    (V m c main_v9 : S32x128.Idx → EReal)
      = transpose S32x128 [1, 0] (m ((c : Thread nD τ).loc main_arg6)) transposes_S128x32_S32x128_1_0 := by
  dsimp only [Gen.V, Gen.hostOps0]; after_results <;> rfl

/-- The second cell's bias row. -/
private theorem V_v11 (c : Dev nD) :
    (V m c main_v11 : S1x128.Idx → EReal)
      = shapeCast S1x128 (addf (F := Ideal) (s := S128) (φ := .f32) (m ((c : Thread nD τ).loc main_arg7) : FVec Ideal S128 .f32) (m ((c : Thread nD τ).loc main_arg8)))
          shapeCasts_S128_S1x128 := by
  dsimp only [Gen.V, Gen.hostOps0]; after_results <;> rfl

/-- The second cell's initial hidden state: row 1 of the states' array. -/
private theorem V_v13 (c : Dev nD) :
    (V m c main_v13 : S1x32.Idx → EReal)
      = shapeCast S1x32 (extractStridedSlice S1x1x32 ![1, 0, 0] (m ((c : Thread nD τ).loc main_arg9)) slices_S2x1x32_S1x1x32_1_0_0)
          shapeCasts_S1x1x32_S1x32 := by
  dsimp only [Gen.V, Gen.hostOps0]; after_results <;> rfl

/-- The second cell's initial cell state. -/
private theorem V_v15 (c : Dev nD) :
    (V m c main_v15 : S1x32.Idx → EReal)
      = shapeCast S1x32 (extractStridedSlice S1x1x32 ![1, 0, 0] (m ((c : Thread nD τ).loc main_arg10)) slices_S2x1x32_S1x1x32_1_0_0)
          shapeCasts_S1x1x32_S1x32 := by
  dsimp only [Gen.V, Gen.hostOps0]; after_results <;> rfl

/-- The normalised head's weights, transposed. -/
private theorem V_v16 (c : Dev nD) :
    (V m c main_v16 : S32x16.Idx → EReal)
      = transpose S32x16 [1, 0] (m ((c : Thread nD τ).loc main_arg11)) transposes_S16x32_S32x16_1_0 := by
  dsimp only [Gen.V, Gen.hostOps0]; after_results <;> rfl

/-- The normalised head's bias, as one row. -/
private theorem V_v17 (c : Dev nD) :
    (V m c main_v17 : S1x16.Idx → EReal)
      = shapeCast S1x16 (m ((c : Thread nD τ).loc main_arg12) : FVec Ideal S16 .f32) shapeCasts_S16_S1x16 := by
  dsimp only [Gen.V, Gen.hostOps0]; after_results <;> rfl

/-- The normalisation's gain, as one row. -/
private theorem V_v18 (c : Dev nD) :
    (V m c main_v18 : S1x16.Idx → EReal)
      = shapeCast S1x16 (m ((c : Thread nD τ).loc main_arg13) : FVec Ideal S16 .f32) shapeCasts_S16_S1x16 := by
  dsimp only [Gen.V, Gen.hostOps0]; after_results <;> rfl

/-- The normalisation's shift, as one row. -/
private theorem V_v19 (c : Dev nD) :
    (V m c main_v19 : S1x16.Idx → EReal)
      = shapeCast S1x16 (m ((c : Thread nD τ).loc main_arg14) : FVec Ideal S16 .f32) shapeCasts_S16_S1x16 := by
  dsimp only [Gen.V, Gen.hostOps0]; after_results <;> rfl

/-- The softplus head's weights, transposed. -/
private theorem V_v20 (c : Dev nD) :
    (V m c main_v20 : S32x16.Idx → EReal)
      = transpose S32x16 [1, 0] (m ((c : Thread nD τ).loc main_arg15)) transposes_S16x32_S32x16_1_0 := by
  dsimp only [Gen.V, Gen.hostOps0]; after_results <;> rfl

/-- The softplus head's bias, as one row. -/
private theorem V_v21 (c : Dev nD) :
    (V m c main_v21 : S1x16.Idx → EReal)
      = shapeCast S1x16 (m ((c : Thread nD τ).loc main_arg16) : FVec Ideal S16 .f32) shapeCasts_S16_S1x16 := by
  dsimp only [Gen.V, Gen.hostOps0]; after_results <;> rfl

/-! ## Each window's block at an index

  A block's coordinate on an axis is the block index times the block's extent plus the coordinate inside the block; with
  the index `(0, 0)` and the block the whole array, the block read is the array read. -/

/-- The input window's block at `(p, k)` is the first argument at row `4096 t + p`. -/
private theorem blk0_apply (c : Dev nD) (t : Fin cfg0.N) (p : Fin 4096) (k : Fin 8) (r : Fin 524288)
    (hr : r.val = t.val * 4096 + p.val) :
    (iblk m c 0 t : FVec Ideal S4096x8 .f32) (ix2 p k)
      = (m ((c : Thread nD τ).loc main_arg0) : FVec Ideal S524288x8 .f32) (ix2 r k) := by
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 4096 + 1 * p.val = r.val; rw [(idx0 t).1, hr]; omega
  | ⟨1, _⟩ => show win0_0.index t (1 : Fin 2) * 8 + 1 * k.val = k.val; rw [(idx0 t).2]; omega

/-- Window 1 at `(k, j)`: the first cell's input weight from coordinate `k` into pre-activation `j`. -/
private theorem blk1_apply (c : Dev nD) (t : Fin cfg0.N) (k : Fin 8) (j : Fin 128) :
    (iblk m c 1 t : FVec Ideal S8x128 .f32) (ix2 k j)
      = (m ((c : Thread nD τ).loc main_arg1) : FVec Ideal S128x8 .f32) (ix2 j k) := by
  unfold iblk
  rw [View.read_apply]
  show V m c main_v0 _ = _
  rw [V_v0]
  refine (congrArg _ (?_ : _ = ix2 k j)).trans (transpose_ix2_apply _ _ k j)
  funext a
  apply Fin.ext
  match a with
  | ⟨0, _⟩ => show win0_1.index t (0 : Fin 2) * 8 + 1 * k.val = k.val; rw [(idx1 t).1]; omega
  | ⟨1, _⟩ => show win0_1.index t (1 : Fin 2) * 128 + 1 * j.val = j.val; rw [(idx1 t).2]; omega

/-- Window 2 at `(k, j)`: the first cell's recurrent weight. -/
private theorem blk2_apply (c : Dev nD) (t : Fin cfg0.N) (k : Fin 32) (j : Fin 128) :
    (iblk m c 2 t : FVec Ideal S32x128 .f32) (ix2 k j)
      = (m ((c : Thread nD τ).loc main_arg2) : FVec Ideal S128x32 .f32) (ix2 j k) := by
  unfold iblk
  rw [View.read_apply]
  show V m c main_v1 _ = _
  rw [V_v1]
  refine (congrArg _ (?_ : _ = ix2 k j)).trans (transpose_ix2_apply _ _ k j)
  funext a
  apply Fin.ext
  match a with
  | ⟨0, _⟩ => show win0_2.index t (0 : Fin 2) * 32 + 1 * k.val = k.val; rw [(idx2 t).1]; omega
  | ⟨1, _⟩ => show win0_2.index t (1 : Fin 2) * 128 + 1 * j.val = j.val; rw [(idx2 t).2]; omega

/-- Window 3 at `(0, j)`: the first cell's summed bias. -/
private theorem blk3_apply (c : Dev nD) (t : Fin cfg0.N) (j : Fin 128) :
    (iblk m c 3 t : FVec Ideal S1x128 .f32) (ix2 (0 : Fin 1) j)
      = (params m c).b0 j := by
  unfold iblk
  rw [View.read_apply]
  show V m c main_v3 _ = _
  rw [V_v3]
  refine (congrArg _ (?_ : _ = ix2 (0 : Fin 1) j)).trans
    ((shapeCast_a_1a_apply _ _ (0 : Fin 1) j).trans (addf_apply _ _ _))
  funext a
  apply Fin.ext
  match a with
  | ⟨0, _⟩ => show win0_3.index t (0 : Fin 2) * 1 + 1 * (0 : Fin 1).val = (0 : Fin 1).val; rw [(idx3 t).1]; rfl
  | ⟨1, _⟩ => show win0_3.index t (1 : Fin 2) * 128 + 1 * j.val = j.val; rw [(idx3 t).2]; omega

/-- A `[1, 1, 32]` slice of the `[2, 1, 32]` states' array starting at row `r`, reshaped to one row, reads at `(0, k)`
    the array at `(r, 0, k)`. -/
private theorem stateRow_apply (A : FVec Ideal S2x1x32 .f32) (r : Fin 2)
    (hs : S2x1x32.Slices ![r.val, 0, 0] S1x1x32) (hc : S1x1x32.ShapeCasts S1x32) (k : Fin 32) :
    shapeCast S1x32 (extractStridedSlice S1x1x32 ![r.val, 0, 0] A hs) hc (ix2 (0 : Fin 1) k)
      = A (ix3 r (0 : Fin 1) k) := by
  refine (shapeCast_1ab_ab_apply _ hc (0 : Fin 1) k).trans ?_
  refine extractStridedSlice_apply _ A hs _ (ix3 r (0 : Fin 1) k) fun a => ?_
  match a with
  | ⟨0, _⟩ => show r.val = r.val + 0; omega
  | ⟨1, _⟩ => rfl
  | ⟨2, _⟩ => show k.val = 0 + k.val; omega

/-- Window 4 at `(0, k)`: the first cell's initial hidden state. -/
private theorem blk4_apply (c : Dev nD) (t : Fin cfg0.N) (k : Fin 32) :
    (iblk m c 4 t : FVec Ideal S1x32 .f32) (ix2 (0 : Fin 1) k)
      = (m ((c : Thread nD τ).loc main_arg9) : FVec Ideal S2x1x32 .f32) (ix3 (0 : Fin 2) (0 : Fin 1) k) := by
  unfold iblk
  rw [View.read_apply]
  show V m c main_v5 _ = _
  rw [V_v5]
  refine (congrArg _ (?_ : _ = ix2 (0 : Fin 1) k)).trans
    (stateRow_apply (m ((c : Thread nD τ).loc main_arg9)) (0 : Fin 2) slices_S2x1x32_S1x1x32_0_0_0 shapeCasts_S1x1x32_S1x32 k)
  funext a
  apply Fin.ext
  match a with
  | ⟨0, _⟩ => show win0_4.index t (0 : Fin 2) * 1 + 1 * (0 : Fin 1).val = (0 : Fin 1).val; rw [(idx4 t).1]; rfl
  | ⟨1, _⟩ => show win0_4.index t (1 : Fin 2) * 32 + 1 * k.val = k.val; rw [(idx4 t).2]; omega

/-- Window 5 at `(0, k)`: the first cell's initial cell state. -/
private theorem blk5_apply (c : Dev nD) (t : Fin cfg0.N) (k : Fin 32) :
    (iblk m c 5 t : FVec Ideal S1x32 .f32) (ix2 (0 : Fin 1) k)
      = (m ((c : Thread nD τ).loc main_arg10) : FVec Ideal S2x1x32 .f32) (ix3 (0 : Fin 2) (0 : Fin 1) k) := by
  unfold iblk
  rw [View.read_apply]
  show V m c main_v7 _ = _
  rw [V_v7]
  refine (congrArg _ (?_ : _ = ix2 (0 : Fin 1) k)).trans
    (stateRow_apply (m ((c : Thread nD τ).loc main_arg10)) (0 : Fin 2) slices_S2x1x32_S1x1x32_0_0_0 shapeCasts_S1x1x32_S1x32 k)
  funext a
  apply Fin.ext
  match a with
  | ⟨0, _⟩ => show win0_5.index t (0 : Fin 2) * 1 + 1 * (0 : Fin 1).val = (0 : Fin 1).val; rw [(idx5 t).1]; rfl
  | ⟨1, _⟩ => show win0_5.index t (1 : Fin 2) * 32 + 1 * k.val = k.val; rw [(idx5 t).2]; omega

/-- Window 6 at `(k, j)`: the second cell's input weight. -/
private theorem blk6_apply (c : Dev nD) (t : Fin cfg0.N) (k : Fin 32) (j : Fin 128) :
    (iblk m c 6 t : FVec Ideal S32x128 .f32) (ix2 k j)
      = (m ((c : Thread nD τ).loc main_arg5) : FVec Ideal S128x32 .f32) (ix2 j k) := by
  unfold iblk
  rw [View.read_apply]
  show V m c main_v8 _ = _
  rw [V_v8]
  refine (congrArg _ (?_ : _ = ix2 k j)).trans (transpose_ix2_apply _ _ k j)
  funext a
  apply Fin.ext
  match a with
  | ⟨0, _⟩ => show win0_6.index t (0 : Fin 2) * 32 + 1 * k.val = k.val; rw [(idx6 t).1]; omega
  | ⟨1, _⟩ => show win0_6.index t (1 : Fin 2) * 128 + 1 * j.val = j.val; rw [(idx6 t).2]; omega

/-- Window 7 at `(k, j)`: the second cell's recurrent weight. -/
private theorem blk7_apply (c : Dev nD) (t : Fin cfg0.N) (k : Fin 32) (j : Fin 128) :
    (iblk m c 7 t : FVec Ideal S32x128 .f32) (ix2 k j)
      = (m ((c : Thread nD τ).loc main_arg6) : FVec Ideal S128x32 .f32) (ix2 j k) := by
  unfold iblk
  rw [View.read_apply]
  show V m c main_v9 _ = _
  rw [V_v9]
  refine (congrArg _ (?_ : _ = ix2 k j)).trans (transpose_ix2_apply _ _ k j)
  funext a
  apply Fin.ext
  match a with
  | ⟨0, _⟩ => show win0_7.index t (0 : Fin 2) * 32 + 1 * k.val = k.val; rw [(idx7 t).1]; omega
  | ⟨1, _⟩ => show win0_7.index t (1 : Fin 2) * 128 + 1 * j.val = j.val; rw [(idx7 t).2]; omega

/-- Window 8 at `(0, j)`: the second cell's summed bias. -/
private theorem blk8_apply (c : Dev nD) (t : Fin cfg0.N) (j : Fin 128) :
    (iblk m c 8 t : FVec Ideal S1x128 .f32) (ix2 (0 : Fin 1) j)
      = (params m c).b1 j := by
  unfold iblk
  rw [View.read_apply]
  show V m c main_v11 _ = _
  rw [V_v11]
  refine (congrArg _ (?_ : _ = ix2 (0 : Fin 1) j)).trans
    ((shapeCast_a_1a_apply _ _ (0 : Fin 1) j).trans (addf_apply _ _ _))
  funext a
  apply Fin.ext
  match a with
  | ⟨0, _⟩ => show win0_8.index t (0 : Fin 2) * 1 + 1 * (0 : Fin 1).val = (0 : Fin 1).val; rw [(idx8 t).1]; rfl
  | ⟨1, _⟩ => show win0_8.index t (1 : Fin 2) * 128 + 1 * j.val = j.val; rw [(idx8 t).2]; omega

/-- Window 9 at `(0, k)`: the second cell's initial hidden state. -/
private theorem blk9_apply (c : Dev nD) (t : Fin cfg0.N) (k : Fin 32) :
    (iblk m c 9 t : FVec Ideal S1x32 .f32) (ix2 (0 : Fin 1) k)
      = (m ((c : Thread nD τ).loc main_arg9) : FVec Ideal S2x1x32 .f32) (ix3 (1 : Fin 2) (0 : Fin 1) k) := by
  unfold iblk
  rw [View.read_apply]
  show V m c main_v13 _ = _
  rw [V_v13]
  refine (congrArg _ (?_ : _ = ix2 (0 : Fin 1) k)).trans
    (stateRow_apply (m ((c : Thread nD τ).loc main_arg9)) (1 : Fin 2) slices_S2x1x32_S1x1x32_1_0_0 shapeCasts_S1x1x32_S1x32 k)
  funext a
  apply Fin.ext
  match a with
  | ⟨0, _⟩ => show win0_9.index t (0 : Fin 2) * 1 + 1 * (0 : Fin 1).val = (0 : Fin 1).val; rw [(idx9 t).1]; rfl
  | ⟨1, _⟩ => show win0_9.index t (1 : Fin 2) * 32 + 1 * k.val = k.val; rw [(idx9 t).2]; omega

/-- Window 10 at `(0, k)`: the second cell's initial cell state. -/
private theorem blk10_apply (c : Dev nD) (t : Fin cfg0.N) (k : Fin 32) :
    (iblk m c 10 t : FVec Ideal S1x32 .f32) (ix2 (0 : Fin 1) k)
      = (m ((c : Thread nD τ).loc main_arg10) : FVec Ideal S2x1x32 .f32) (ix3 (1 : Fin 2) (0 : Fin 1) k) := by
  unfold iblk
  rw [View.read_apply]
  show V m c main_v15 _ = _
  rw [V_v15]
  refine (congrArg _ (?_ : _ = ix2 (0 : Fin 1) k)).trans
    (stateRow_apply (m ((c : Thread nD τ).loc main_arg10)) (1 : Fin 2) slices_S2x1x32_S1x1x32_1_0_0 shapeCasts_S1x1x32_S1x32 k)
  funext a
  apply Fin.ext
  match a with
  | ⟨0, _⟩ => show win0_10.index t (0 : Fin 2) * 1 + 1 * (0 : Fin 1).val = (0 : Fin 1).val; rw [(idx10 t).1]; rfl
  | ⟨1, _⟩ => show win0_10.index t (1 : Fin 2) * 32 + 1 * k.val = k.val; rw [(idx10 t).2]; omega

/-- Window 11 at `(k, q)`: the normalised head's weight from feature `k` into output `q`. -/
private theorem blk11_apply (c : Dev nD) (t : Fin cfg0.N) (k : Fin 32) (q : Fin 16) :
    (iblk m c 11 t : FVec Ideal S32x16 .f32) (ix2 k q)
      = (m ((c : Thread nD τ).loc main_arg11) : FVec Ideal S16x32 .f32) (ix2 q k) := by
  unfold iblk
  rw [View.read_apply]
  show V m c main_v16 _ = _
  rw [V_v16]
  refine (congrArg _ (?_ : _ = ix2 k q)).trans (transpose_ix2_apply _ _ k q)
  funext a
  apply Fin.ext
  match a with
  | ⟨0, _⟩ => show win0_11.index t (0 : Fin 2) * 32 + 1 * k.val = k.val; rw [(idx11 t).1]; omega
  | ⟨1, _⟩ => show win0_11.index t (1 : Fin 2) * 16 + 1 * q.val = q.val; rw [(idx11 t).2]; omega

/-- Window 12 at `(0, q)`: the normalised head's bias. -/
private theorem blk12_apply (c : Dev nD) (t : Fin cfg0.N) (q : Fin 16) :
    (iblk m c 12 t : FVec Ideal S1x16 .f32) (ix2 (0 : Fin 1) q)
      = (m ((c : Thread nD τ).loc main_arg12) : FVec Ideal S16 .f32) (ix1 q) := by
  unfold iblk
  rw [View.read_apply]
  show V m c main_v17 _ = _
  rw [V_v17]
  refine (congrArg _ (?_ : _ = ix2 (0 : Fin 1) q)).trans (shapeCast_a_1a_apply _ _ (0 : Fin 1) q)
  funext a
  apply Fin.ext
  match a with
  | ⟨0, _⟩ => show win0_12.index t (0 : Fin 2) * 1 + 1 * (0 : Fin 1).val = (0 : Fin 1).val; rw [(idx12 t).1]; rfl
  | ⟨1, _⟩ => show win0_12.index t (1 : Fin 2) * 16 + 1 * q.val = q.val; rw [(idx12 t).2]; omega

/-- Window 13 at `(0, q)`: the normalisation's gain. -/
private theorem blk13_apply (c : Dev nD) (t : Fin cfg0.N) (q : Fin 16) :
    (iblk m c 13 t : FVec Ideal S1x16 .f32) (ix2 (0 : Fin 1) q)
      = (m ((c : Thread nD τ).loc main_arg13) : FVec Ideal S16 .f32) (ix1 q) := by
  unfold iblk
  rw [View.read_apply]
  show V m c main_v18 _ = _
  rw [V_v18]
  refine (congrArg _ (?_ : _ = ix2 (0 : Fin 1) q)).trans (shapeCast_a_1a_apply _ _ (0 : Fin 1) q)
  funext a
  apply Fin.ext
  match a with
  | ⟨0, _⟩ => show win0_13.index t (0 : Fin 2) * 1 + 1 * (0 : Fin 1).val = (0 : Fin 1).val; rw [(idx13 t).1]; rfl
  | ⟨1, _⟩ => show win0_13.index t (1 : Fin 2) * 16 + 1 * q.val = q.val; rw [(idx13 t).2]; omega

/-- Window 14 at `(0, q)`: the normalisation's shift. -/
private theorem blk14_apply (c : Dev nD) (t : Fin cfg0.N) (q : Fin 16) :
    (iblk m c 14 t : FVec Ideal S1x16 .f32) (ix2 (0 : Fin 1) q)
      = (m ((c : Thread nD τ).loc main_arg14) : FVec Ideal S16 .f32) (ix1 q) := by
  unfold iblk
  rw [View.read_apply]
  show V m c main_v19 _ = _
  rw [V_v19]
  refine (congrArg _ (?_ : _ = ix2 (0 : Fin 1) q)).trans (shapeCast_a_1a_apply _ _ (0 : Fin 1) q)
  funext a
  apply Fin.ext
  match a with
  | ⟨0, _⟩ => show win0_14.index t (0 : Fin 2) * 1 + 1 * (0 : Fin 1).val = (0 : Fin 1).val; rw [(idx14 t).1]; rfl
  | ⟨1, _⟩ => show win0_14.index t (1 : Fin 2) * 16 + 1 * q.val = q.val; rw [(idx14 t).2]; omega

/-- Window 15 at `(k, q)`: the softplus head's weight. -/
private theorem blk15_apply (c : Dev nD) (t : Fin cfg0.N) (k : Fin 32) (q : Fin 16) :
    (iblk m c 15 t : FVec Ideal S32x16 .f32) (ix2 k q)
      = (m ((c : Thread nD τ).loc main_arg15) : FVec Ideal S16x32 .f32) (ix2 q k) := by
  unfold iblk
  rw [View.read_apply]
  show V m c main_v20 _ = _
  rw [V_v20]
  refine (congrArg _ (?_ : _ = ix2 k q)).trans (transpose_ix2_apply _ _ k q)
  funext a
  apply Fin.ext
  match a with
  | ⟨0, _⟩ => show win0_15.index t (0 : Fin 2) * 32 + 1 * k.val = k.val; rw [(idx15 t).1]; omega
  | ⟨1, _⟩ => show win0_15.index t (1 : Fin 2) * 16 + 1 * q.val = q.val; rw [(idx15 t).2]; omega

/-- Window 16 at `(0, q)`: the softplus head's bias. -/
private theorem blk16_apply (c : Dev nD) (t : Fin cfg0.N) (q : Fin 16) :
    (iblk m c 16 t : FVec Ideal S1x16 .f32) (ix2 (0 : Fin 1) q)
      = (m ((c : Thread nD τ).loc main_arg16) : FVec Ideal S16 .f32) (ix1 q) := by
  unfold iblk
  rw [View.read_apply]
  show V m c main_v21 _ = _
  rw [V_v21]
  refine (congrArg _ (?_ : _ = ix2 (0 : Fin 1) q)).trans (shapeCast_a_1a_apply _ _ (0 : Fin 1) q)
  funext a
  apply Fin.ext
  match a with
  | ⟨0, _⟩ => show win0_16.index t (0 : Fin 2) * 1 + 1 * (0 : Fin 1).val = (0 : Fin 1).val; rw [(idx16 t).1]; rfl
  | ⟨1, _⟩ => show win0_16.index t (1 : Fin 2) * 16 + 1 * q.val = q.val; rw [(idx16 t).2]; omega

/-- At every grid point the resident blocks hold the parameters read out of the arguments. -/
theorem blockParams_eq (c : Dev nD) (t : Fin cfg0.N) :
    Tile.blockParams (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) = params m c := by
  unfold Tile.blockParams params Net.argParams
  rw [Net.Params.mk.injEq]
  exact ⟨funext fun k => blk4_apply m c t k, funext fun k => blk5_apply m c t k,
    funext fun k => funext fun j => blk1_apply m c t k j, funext fun k => funext fun j => blk2_apply m c t k j,
    funext fun j => blk3_apply m c t j,
    funext fun k => blk9_apply m c t k, funext fun k => blk10_apply m c t k,
    funext fun k => funext fun j => blk6_apply m c t k j, funext fun k => funext fun j => blk7_apply m c t k j,
    funext fun j => blk8_apply m c t j,
    funext fun k => funext fun q => blk11_apply m c t k q, funext fun q => blk12_apply m c t q,
    funext fun q => blk13_apply m c t q, funext fun q => blk14_apply m c t q,
    funext fun k => funext fun q => blk15_apply m c t k q, funext fun q => blk16_apply m c t q⟩

/-- Row `p` of the input window's block at point `t` is row `4096 t + p` of the first argument. -/
theorem inputRow_eq (c : Dev nD) (t : Fin cfg0.N) (p : Fin 4096) :
    (fun k : Fin 8 => (iblk m c 0 t : FVec Ideal S4096x8 .f32) (ix2 p k))
      = Net.inputRow (m ((c : Thread nD τ).loc main_arg0)) (batchRow t p) := by
  funext k
  exact blk0_apply m c t p k (batchRow t p) rfl

end Cert.KernelIdeal.Whole

end
-- ==== Proof.KernelArray.lean ====
/-
  From blocks to the whole arrays.

  Grid point `t` writes back rows `4096 t … 4096 t + 4095` of each result, and those rows are the network applied to
  the same rows of the input (the tile lemmas, with the blocks read as rows of the arguments). The 128 points' blocks
  cover all 524288 rows, so after the run each result array is the whole-array function `Net.muArray` / `Net.sigmaArray`.
-/
import proofs.«134364_j54992761258656_1_alg».proof.Proof.Gen.KernelIdeal.Value
import proofs.«134364_j54992761258656_1_alg».proof.Proof.KernelParams

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Each output window's block index at point `t` is `(t, 0)`. -/
theorem idx17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)
theorem idx18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

/-- The first result as a whole-array function of core `c`'s arguments. -/
abbrev muWhole (c : Dev nD) : Buf (Elt Ideal) ((c : Thread nD τ).loc main_v22_0) :=
  Net.muArray (params m c) (m ((c : Thread nD τ).loc main_arg0))
/-- The second result likewise. -/
abbrev sigmaWhole (c : Dev nD) : Buf (Elt Ideal) ((c : Thread nD τ).loc main_v22_1) :=
  Net.sigmaArray (params m c) (m ((c : Thread nD τ).loc main_arg0))

/-- What point `t` writes back to the first result is block `t` of `muWhole`. -/
theorem flushed17_eq (c : Dev nD) (t : Fin cfg0.N) :
    (dats m 0 c).flushed 17 t = ((cfg0.win 17).blk t).view.read (Elt Ideal) (muWhole m c) := by
  rw [Value.flushed17]
  funext j
  obtain ⟨p, q, rfl⟩ : ∃ (p : Fin 4096) (q : Fin 16), j = ix2 p q := ⟨j 0, j 1, eq_ix2 j⟩
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q)
    = muWhole m c (((cfg0.win 17).blk t).view.emb (ix2 p q))
  rw [Tile.out17_apply, blockParams_eq, inputRow_eq]
  have e0 : ((cfg0.win 17).blk t).view.emb (ix2 p q) 0 = batchRow t p := Fin.ext (by
    show win0_17.index t (0 : Fin 2) * 4096 + 1 * p.val = t.val * 4096 + p.val
    rw [(idx17 t).1]; omega)
  have e1 : ((cfg0.win 17).blk t).view.emb (ix2 p q) 1 = q := Fin.ext (by
    show win0_17.index t (1 : Fin 2) * 16 + 1 * q.val = q.val
    rw [(idx17 t).2]; omega)
  show _ = Net.mu (params m c) (Net.inputRow _ (((cfg0.win 17).blk t).view.emb (ix2 p q) 0)) (((cfg0.win 17).blk t).view.emb (ix2 p q) 1)
  rw [e0, e1]

/-- What point `t` writes back to the second result is block `t` of `sigmaWhole`. -/
theorem flushed18_eq (c : Dev nD) (t : Fin cfg0.N) :
    (dats m 0 c).flushed 18 t = ((cfg0.win 18).blk t).view.read (Elt Ideal) (sigmaWhole m c) := by
  rw [Value.flushed18]
  funext j
  obtain ⟨p, q, rfl⟩ : ∃ (p : Fin 4096) (q : Fin 16), j = ix2 p q := ⟨j 0, j 1, eq_ix2 j⟩
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q)
    = sigmaWhole m c (((cfg0.win 18).blk t).view.emb (ix2 p q))
  rw [Tile.out18_apply, blockParams_eq, inputRow_eq]
  have e0 : ((cfg0.win 18).blk t).view.emb (ix2 p q) 0 = batchRow t p := Fin.ext (by
    show win0_18.index t (0 : Fin 2) * 4096 + 1 * p.val = t.val * 4096 + p.val
    rw [(idx18 t).1]; omega)
  have e1 : ((cfg0.win 18).blk t).view.emb (ix2 p q) 1 = q := Fin.ext (by
    show win0_18.index t (1 : Fin 2) * 16 + 1 * q.val = q.val
    rw [(idx18 t).2]; omega)
  show _ = Net.sigma (params m c) (Net.inputRow _ (((cfg0.win 18).blk t).view.emb (ix2 p q) 0)) (((cfg0.win 18).blk t).view.emb (ix2 p q) 1)
  rw [e0, e1]

/-- An index of the first result is in point `t`'s block iff each coordinate is in the block's range on its axis. -/
theorem mem_blk17 (t : Fin cfg0.N) (i : S524288x16.Idx) :
    i ∈ ((cfg0.win 17).blk t).view.set ↔ ∀ a : Fin 2, win0_17.index t a * S4096x16.size a ≤ (i a).val ∧ (i a).val < win0_17.index t a * S4096x16.size a + S4096x16.size a := by
  show i ∈ ((View.whole main_v22_0).slice (win0_17.rect t)).set ↔ _
  rw [View.set_slice_whole, Rect.mem_set_unit]
  exact Iff.rfl

theorem mem_blk18 (t : Fin cfg0.N) (i : S524288x16.Idx) :
    i ∈ ((cfg0.win 18).blk t).view.set ↔ ∀ a : Fin 2, win0_18.index t a * S4096x16.size a ≤ (i a).val ∧ (i a).val < win0_18.index t a * S4096x16.size a + S4096x16.size a := by
  show i ∈ ((View.whole main_v22_1).slice (win0_18.rect t)).set ↔ _
  rw [View.set_slice_whole, Rect.mem_set_unit]
  exact Iff.rfl

/-- Row `r` of a result lies in the block of point `r / 4096`. -/
theorem cover17 (i : S524288x16.Idx) : ∃ t : Fin cfg0.N, (cfg0.win 17).flush t = true ∧ i ∈ ((cfg0.win 17).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_17 _, ?_⟩
  rw [mem_blk17]
  obtain ⟨q0, q1⟩ := idx17 ⟨(i 0).val / 4096, by rw [hN]; omega⟩
  intro a
  match a with
  | ⟨0, _⟩ =>
    show win0_17.index _ (0 : Fin 2) * 4096 ≤ (i 0).val ∧ (i 0).val < win0_17.index _ (0 : Fin 2) * 4096 + 4096
    rw [q0]; show (i 0).val / 4096 * 4096 ≤ (i 0).val ∧ (i 0).val < (i 0).val / 4096 * 4096 + 4096; omega
  | ⟨1, _⟩ =>
    show win0_17.index _ (1 : Fin 2) * 16 ≤ (i 1).val ∧ (i 1).val < win0_17.index _ (1 : Fin 2) * 16 + 16
    rw [q1]; omega

theorem cover18 (i : S524288x16.Idx) : ∃ t : Fin cfg0.N, (cfg0.win 18).flush t = true ∧ i ∈ ((cfg0.win 18).blk t).view.set := by
  have hi0 : (i 0).val < 524288 := (i 0).isLt
  have hi1 : (i 1).val < 16 := (i 1).isLt
  have hN : cfg0.N = 128 := N_0
  refine ⟨⟨(i 0).val / 4096, by rw [hN]; omega⟩, flush0_18 _, ?_⟩
  rw [mem_blk18]
  obtain ⟨q0, q1⟩ := idx18 ⟨(i 0).val / 4096, by rw [hN]; omega⟩
  intro a
  match a with
  | ⟨0, _⟩ =>
    show win0_18.index _ (0 : Fin 2) * 4096 ≤ (i 0).val ∧ (i 0).val < win0_18.index _ (0 : Fin 2) * 4096 + 4096
    rw [q0]; show (i 0).val / 4096 * 4096 ≤ (i 0).val ∧ (i 0).val < (i 0).val / 4096 * 4096 + 4096; omega
  | ⟨1, _⟩ =>
    show win0_18.index _ (1 : Fin 2) * 16 ≤ (i 1).val ∧ (i 1).val < win0_18.index _ (1 : Fin 2) * 16 + 16
    rw [q1]; omega

/-- The first result array after the run. -/
theorem final17 (c : Dev nD) : (dats m 0 c).arrAt 17 cfg0.N = muWhole m c :=
  (dats m 0 c).arrAt_eq_of_cover 17 (muWhole m c) (fun t _ => flushed17_eq m c t) cover17

/-- The second result array after the run. -/
theorem final18 (c : Dev nD) : (dats m 0 c).arrAt 18 cfg0.N = sigmaWhole m c :=
  (dats m 0 c).arrAt_eq_of_cover 18 (sigmaWhole m c) (fun t _ => flushed18_eq m c t) cover18

end Cert.KernelIdeal.Whole

end
-- ==== Proof.RefCells.lean ====
/-
  The reference's two cells, row by row.

  Row `r` of each cell's hidden-state array depends only on row `r` of the cell's input array: it is `Net.hidden` of
  `Net.gates` of that row, with the weights read transposed, the two bias vectors added, and the initial states' row
  for that cell. The reference spells the logistic function as `1 / (1 + e^{-x})`, which is what `Ideal.logistic` is.
-/
import proofs.«134364_j54992761258656_1_alg».proof.Proof.Gen.ReferenceIdeal.Read
import proofs.«134364_j54992761258656_1_alg».proof.Proof.Net
import Idealize.ShloMosaic.Lib.ValueIdx

noncomputable section

namespace Cert.ReferenceIdeal.Rows

open Cert.ReferenceIdeal Cert.ReferenceIdeal.Read Idealize.ShloMosaic Idealize.ShloMosaic.ValueIdx

/-! ## What the two cells share -/

/-- A cell's hidden state with each logistic function spelt `1 / (1 + e^{-x})`. -/
private theorem hidden_spelt (g : Fin 128 → EReal) (c : Fin 32 → EReal) (q : Fin 32) :
    Ideal.div 1 (1 + Ideal.exp (-(g (Net.posO q)))) *
        Ideal.tanh (Ideal.div 1 (1 + Ideal.exp (-(g (Net.posF q)))) * c q
          + Ideal.div 1 (1 + Ideal.exp (-(g (Net.posI q)))) * Ideal.tanh (g (Net.posG q)))
      = Net.hidden g c q := rfl

variable (x0 : (⟨S524288x8, .f32⟩ : BufTy).Contents (Elt Ideal)) (x1 : (⟨S128x8, .f32⟩ : BufTy).Contents (Elt Ideal))
  (x2 : (⟨S128x32, .f32⟩ : BufTy).Contents (Elt Ideal)) (x3 x4 : (⟨S128, .f32⟩ : BufTy).Contents (Elt Ideal))
  (x5 x6 : (⟨S128x32, .f32⟩ : BufTy).Contents (Elt Ideal)) (x7 x8 : (⟨S128, .f32⟩ : BufTy).Contents (Elt Ideal))
  (x9 x10 : (⟨S2x1x32, .f32⟩ : BufTy).Contents (Elt Ideal))

/-! ## The first cell -/

/-- Row `r` of the first cell's initial hidden state is the state's only row. -/
private theorem v3_at (r : Fin 524288) (k : Fin 32) :
    val_main_v3 (F := Ideal) x9 (ix2 r k) = x9 (ix3 (0 : Fin 2) (0 : Fin 1) k) := by
  rw [val_main_v3_apply, val_main_v2_apply, val_main_v0_apply]
  refine congrArg x9 (funext fun a => Fin.ext ?_)
  have hk := k.isLt
  match a with
  | ⟨0, _⟩ => rfl
  | ⟨1, _⟩ => rfl
  | ⟨2, _⟩ => show (r.val * 32 + k.val) % 32 = k.val; omega

/-- Row `r` of the first cell's initial cell state is the state's only row. -/
private theorem v5_at (r : Fin 524288) (k : Fin 32) :
    val_main_v5 (F := Ideal) x10 (ix2 r k) = x10 (ix3 (0 : Fin 2) (0 : Fin 1) k) := by
  rw [val_main_v5_apply, val_main_v4_apply, val_main_v1_apply]
  refine congrArg x10 (funext fun a => Fin.ext ?_)
  have hk := k.isLt
  match a with
  | ⟨0, _⟩ => rfl
  | ⟨1, _⟩ => rfl
  | ⟨2, _⟩ => show (r.val * 32 + k.val) % 32 = k.val; omega

/-- The input row times the input weights, read transposed. -/
private theorem v7_at (r : Fin 524288) (j : Fin 128) :
    val_main_v7 (F := Ideal) x0 x1 (ix2 r j) = ∑ k : Fin 8, x0 (ix2 r k) * x1 (ix2 j k) := by
  rw [val_main_v7_apply]
  refine Finset.sum_congr rfl fun k _ => ?_
  rw [val_main_v6_apply, show lidx_main_v7 (ix2 r j) k = ix2 r k from Shape.idx_ext₂ rfl rfl,
    show idx_main_v6 (ridx_main_v7 (ix2 r j) k) = ix2 j k from Shape.idx_ext₂ rfl rfl]

/-- The initial hidden state times the recurrent weights, read transposed. -/
private theorem v9_at (r : Fin 524288) (j : Fin 128) :
    val_main_v9 (F := Ideal) x2 x9 (ix2 r j) = ∑ k : Fin 32, x9 (ix3 (0 : Fin 2) (0 : Fin 1) k) * x2 (ix2 j k) := by
  rw [val_main_v9_apply]
  refine Finset.sum_congr rfl fun k _ => ?_
  rw [val_main_v8_apply, show lidx_main_v9 (ix2 r j) k = ix2 r k from Shape.idx_ext₂ rfl rfl, v3_at,
    show idx_main_v8 (ridx_main_v9 (ix2 r j) k) = ix2 j k from Shape.idx_ext₂ rfl rfl]

/-- The summed bias, the same in every row. -/
private theorem v13_at (r : Fin 524288) (j : Fin 128) :
    val_main_v13 (F := Ideal) x3 x4 (ix2 r j) = x3 (ix1 j) + x4 (ix1 j) := by
  rw [val_main_v13_apply, val_main_v12_apply, val_main_v11_apply, Ideal.addf_def,
    show idx_main_v12 (idx_main_v13 (ix2 r j)) = ix1 j from
      funext fun a => Fin.ext (by match a with | ⟨0, _⟩ => rfl)]

/-- The first cell's 128 pre-activations in row `r`. -/
private theorem v14_at (r : Fin 524288) (j : Fin 128) :
    val_main_v14 (F := Ideal) x0 x1 x2 x3 x4 x9 (ix2 r j)
      = Net.gates (fun k => x0 (ix2 r k)) (fun k => x9 (ix3 (0 : Fin 2) (0 : Fin 1) k))
          (fun k j => x1 (ix2 j k)) (fun k j => x2 (ix2 j k)) (fun j => x3 (ix1 j) + x4 (ix1 j)) j := by
  rw [val_main_v14_apply, val_main_v10_apply, v7_at, v9_at, v13_at, Ideal.addf_def, Ideal.addf_def]
  rfl

/-- The four column blocks of the pre-activations: input, forget, candidate and output. -/
private theorem v15_at (r : Fin 524288) (q : Fin 32) :
    val_main_v15 (F := Ideal) x0 x1 x2 x3 x4 x9 (ix2 r q)
      = val_main_v14 (F := Ideal) x0 x1 x2 x3 x4 x9 (ix2 r (Net.posI q)) := by
  rw [val_main_v15_apply, show idx_main_v15 (ix2 r q) = ix2 r (Net.posI q) from Shape.idx_ext₂ rfl rfl]

private theorem v16_at (r : Fin 524288) (q : Fin 32) :
    val_main_v16 (F := Ideal) x0 x1 x2 x3 x4 x9 (ix2 r q)
      = val_main_v14 (F := Ideal) x0 x1 x2 x3 x4 x9 (ix2 r (Net.posF q)) := by
  rw [val_main_v16_apply, show idx_main_v16 (ix2 r q) = ix2 r (Net.posF q) from Shape.idx_ext₂ rfl rfl]

private theorem v17_at (r : Fin 524288) (q : Fin 32) :
    val_main_v17 (F := Ideal) x0 x1 x2 x3 x4 x9 (ix2 r q)
      = val_main_v14 (F := Ideal) x0 x1 x2 x3 x4 x9 (ix2 r (Net.posG q)) := by
  rw [val_main_v17_apply, show idx_main_v17 (ix2 r q) = ix2 r (Net.posG q) from Shape.idx_ext₂ rfl rfl]

private theorem v18_at (r : Fin 524288) (q : Fin 32) :
    val_main_v18 (F := Ideal) x0 x1 x2 x3 x4 x9 (ix2 r q)
      = val_main_v14 (F := Ideal) x0 x1 x2 x3 x4 x9 (ix2 r (Net.posO q)) := by
  rw [val_main_v18_apply, show idx_main_v18 (ix2 r q) = ix2 r (Net.posO q) from Shape.idx_ext₂ rfl rfl]

/-- The six arrays of the constant 1.0 that the first cell's three logistic functions use. -/
private theorem v21_one (i : S524288x32.Idx) : val_main_v21 (F := Ideal) i = 1 := by
  rw [val_main_v21_apply, val_main_cst_apply, Ideal.ofBits_def, Net.ofBits_one]
private theorem v23_one (i : S524288x32.Idx) : val_main_v23 (F := Ideal) i = 1 := by
  rw [val_main_v23_apply, val_main_cst_0_apply, Ideal.ofBits_def, Net.ofBits_one]
private theorem v27_one (i : S524288x32.Idx) : val_main_v27 (F := Ideal) i = 1 := by
  rw [val_main_v27_apply, val_main_cst_1_apply, Ideal.ofBits_def, Net.ofBits_one]
private theorem v29_one (i : S524288x32.Idx) : val_main_v29 (F := Ideal) i = 1 := by
  rw [val_main_v29_apply, val_main_cst_2_apply, Ideal.ofBits_def, Net.ofBits_one]
private theorem v33_one (i : S524288x32.Idx) : val_main_v33 (F := Ideal) i = 1 := by
  rw [val_main_v33_apply, val_main_cst_3_apply, Ideal.ofBits_def, Net.ofBits_one]
private theorem v35_one (i : S524288x32.Idx) : val_main_v35 (F := Ideal) i = 1 := by
  rw [val_main_v35_apply, val_main_cst_4_apply, Ideal.ofBits_def, Net.ofBits_one]

/-- The first cell's hidden state at `(r, q)`. -/
theorem h1_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal))
    (x9 x10 : (⟨S2x1x32, .f32⟩ : BufTy).Contents (Elt Ideal)) (r : Fin 524288) (q : Fin 32) :
    val_main_v42 (F := Ideal) x0 x1 x2 x3 x4 x9 x10 (ix2 r q)
      = Net.hidden (Net.gates (fun k => x0 (ix2 r k)) (fun k => x9 (ix3 (0 : Fin 2) (0 : Fin 1) k))
          (fun k j => x1 (ix2 j k)) (fun k j => x2 (ix2 j k)) (fun j => x3 (ix1 j) + x4 (ix1 j)))
          (fun k => x10 (ix3 (0 : Fin 2) (0 : Fin 1) k)) q := by
  rw [val_main_v42_apply, val_main_v36_apply, val_main_v41_apply, val_main_v40_apply, val_main_v38_apply,
    val_main_v39_apply, val_main_v30_apply, val_main_v24_apply, val_main_v37_apply, val_main_v34_apply,
    val_main_v28_apply, val_main_v22_apply, val_main_v32_apply, val_main_v26_apply, val_main_v20_apply,
    val_main_v31_apply, val_main_v25_apply, val_main_v19_apply, v15_at, v16_at, v17_at, v18_at, v5_at,
    v21_one, v23_one, v27_one, v29_one, v33_one, v35_one]
  simp only [Ideal.mulf_def, Ideal.addf_def, Ideal.hostDivf_def, Ideal.hostUnary_exp_def,
    Ideal.hostUnary_tanh_def, Ideal.hostNegf_def, Ideal.negf_def, v14_at]
  exact hidden_spelt _ (fun k => x10 (ix3 (0 : Fin 2) (0 : Fin 1) k)) q

/-! ## The second cell -/

/-- Row `r` of the second cell's initial hidden state is the state's only row. -/
private theorem v44_at (r : Fin 524288) (k : Fin 32) :
    val_main_v44 (F := Ideal) x9 (ix2 r k) = x9 (ix3 (1 : Fin 2) (0 : Fin 1) k) := by
  rw [val_main_v44_apply, val_main_v43_apply, val_main_v0_apply]
  refine congrArg x9 (funext fun a => Fin.ext ?_)
  have hk := k.isLt
  match a with
  | ⟨0, _⟩ => rfl
  | ⟨1, _⟩ => rfl
  | ⟨2, _⟩ => show (r.val * 32 + k.val) % 32 = k.val; omega

/-- Row `r` of the second cell's initial cell state is the state's only row. -/
private theorem v46_at (r : Fin 524288) (k : Fin 32) :
    val_main_v46 (F := Ideal) x10 (ix2 r k) = x10 (ix3 (1 : Fin 2) (0 : Fin 1) k) := by
  rw [val_main_v46_apply, val_main_v45_apply, val_main_v1_apply]
  refine congrArg x10 (funext fun a => Fin.ext ?_)
  have hk := k.isLt
  match a with
  | ⟨0, _⟩ => rfl
  | ⟨1, _⟩ => rfl
  | ⟨2, _⟩ => show (r.val * 32 + k.val) % 32 = k.val; omega

/-- Row `r` of the first cell's hidden state times the second cell's input weights, read transposed. -/
private theorem v48_at (r : Fin 524288) (j : Fin 128) :
    val_main_v48 (F := Ideal) x0 x1 x2 x3 x4 x5 x9 x10 (ix2 r j)
      = ∑ k : Fin 32, val_main_v42 (F := Ideal) x0 x1 x2 x3 x4 x9 x10 (ix2 r k) * x5 (ix2 j k) := by
  rw [val_main_v48_apply]
  refine Finset.sum_congr rfl fun k _ => ?_
  rw [val_main_v47_apply, show lidx_main_v48 (ix2 r j) k = ix2 r k from Shape.idx_ext₂ rfl rfl,
    show idx_main_v47 (ridx_main_v48 (ix2 r j) k) = ix2 j k from Shape.idx_ext₂ rfl rfl]

/-- The initial hidden state times the recurrent weights, read transposed. -/
private theorem v50_at (r : Fin 524288) (j : Fin 128) :
    val_main_v50 (F := Ideal) x6 x9 (ix2 r j) = ∑ k : Fin 32, x9 (ix3 (1 : Fin 2) (0 : Fin 1) k) * x6 (ix2 j k) := by
  rw [val_main_v50_apply]
  refine Finset.sum_congr rfl fun k _ => ?_
  rw [val_main_v49_apply, show lidx_main_v50 (ix2 r j) k = ix2 r k from Shape.idx_ext₂ rfl rfl, v44_at,
    show idx_main_v49 (ridx_main_v50 (ix2 r j) k) = ix2 j k from Shape.idx_ext₂ rfl rfl]

/-- The summed bias, the same in every row. -/
private theorem v54_at (r : Fin 524288) (j : Fin 128) :
    val_main_v54 (F := Ideal) x7 x8 (ix2 r j) = x7 (ix1 j) + x8 (ix1 j) := by
  rw [val_main_v54_apply, val_main_v53_apply, val_main_v52_apply, Ideal.addf_def,
    show idx_main_v53 (idx_main_v54 (ix2 r j)) = ix1 j from
      funext fun a => Fin.ext (by match a with | ⟨0, _⟩ => rfl)]

/-- The second cell's 128 pre-activations in row `r`, from row `r` of the first cell's hidden state. -/
private theorem v55_at (r : Fin 524288) (j : Fin 128) :
    val_main_v55 (F := Ideal) x0 x1 x2 x3 x4 x5 x6 x7 x8 x9 x10 (ix2 r j)
      = Net.gates (fun k => val_main_v42 (F := Ideal) x0 x1 x2 x3 x4 x9 x10 (ix2 r k))
          (fun k => x9 (ix3 (1 : Fin 2) (0 : Fin 1) k))
          (fun k j => x5 (ix2 j k)) (fun k j => x6 (ix2 j k)) (fun j => x7 (ix1 j) + x8 (ix1 j)) j := by
  rw [val_main_v55_apply, val_main_v51_apply, v48_at, v50_at, v54_at, Ideal.addf_def, Ideal.addf_def]
  rfl

/-- The four column blocks of the pre-activations: input, forget, candidate and output. -/
private theorem v56_at (r : Fin 524288) (q : Fin 32) :
    val_main_v56 (F := Ideal) x0 x1 x2 x3 x4 x5 x6 x7 x8 x9 x10 (ix2 r q)
      = val_main_v55 (F := Ideal) x0 x1 x2 x3 x4 x5 x6 x7 x8 x9 x10 (ix2 r (Net.posI q)) := by
  rw [val_main_v56_apply, show idx_main_v56 (ix2 r q) = ix2 r (Net.posI q) from Shape.idx_ext₂ rfl rfl]

private theorem v57_at (r : Fin 524288) (q : Fin 32) :
    val_main_v57 (F := Ideal) x0 x1 x2 x3 x4 x5 x6 x7 x8 x9 x10 (ix2 r q)
      = val_main_v55 (F := Ideal) x0 x1 x2 x3 x4 x5 x6 x7 x8 x9 x10 (ix2 r (Net.posF q)) := by
  rw [val_main_v57_apply, show idx_main_v57 (ix2 r q) = ix2 r (Net.posF q) from Shape.idx_ext₂ rfl rfl]

private theorem v58_at (r : Fin 524288) (q : Fin 32) :
    val_main_v58 (F := Ideal) x0 x1 x2 x3 x4 x5 x6 x7 x8 x9 x10 (ix2 r q)
      = val_main_v55 (F := Ideal) x0 x1 x2 x3 x4 x5 x6 x7 x8 x9 x10 (ix2 r (Net.posG q)) := by
  rw [val_main_v58_apply, show idx_main_v58 (ix2 r q) = ix2 r (Net.posG q) from Shape.idx_ext₂ rfl rfl]

private theorem v59_at (r : Fin 524288) (q : Fin 32) :
    val_main_v59 (F := Ideal) x0 x1 x2 x3 x4 x5 x6 x7 x8 x9 x10 (ix2 r q)
      = val_main_v55 (F := Ideal) x0 x1 x2 x3 x4 x5 x6 x7 x8 x9 x10 (ix2 r (Net.posO q)) := by
  rw [val_main_v59_apply, show idx_main_v59 (ix2 r q) = ix2 r (Net.posO q) from Shape.idx_ext₂ rfl rfl]

/-- The six arrays of the constant 1.0 that the second cell's three logistic functions use. -/
private theorem v62_one (i : S524288x32.Idx) : val_main_v62 (F := Ideal) i = 1 := by
  rw [val_main_v62_apply, val_main_cst_5_apply, Ideal.ofBits_def, Net.ofBits_one]
private theorem v64_one (i : S524288x32.Idx) : val_main_v64 (F := Ideal) i = 1 := by
  rw [val_main_v64_apply, val_main_cst_6_apply, Ideal.ofBits_def, Net.ofBits_one]
private theorem v68_one (i : S524288x32.Idx) : val_main_v68 (F := Ideal) i = 1 := by
  rw [val_main_v68_apply, val_main_cst_7_apply, Ideal.ofBits_def, Net.ofBits_one]
private theorem v70_one (i : S524288x32.Idx) : val_main_v70 (F := Ideal) i = 1 := by
  rw [val_main_v70_apply, val_main_cst_8_apply, Ideal.ofBits_def, Net.ofBits_one]
private theorem v74_one (i : S524288x32.Idx) : val_main_v74 (F := Ideal) i = 1 := by
  rw [val_main_v74_apply, val_main_cst_9_apply, Ideal.ofBits_def, Net.ofBits_one]
private theorem v76_one (i : S524288x32.Idx) : val_main_v76 (F := Ideal) i = 1 := by
  rw [val_main_v76_apply, val_main_cst_10_apply, Ideal.ofBits_def, Net.ofBits_one]

/-- The second cell's hidden state at `(r, q)`, from row `r` of the first cell's. -/
theorem h2_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (r : Fin 524288) (q : Fin 32) :
    val_main_v83 (F := Ideal) x0 x1 x2 x3 x4 x5 x6 x7 x8 x9 x10 (ix2 r q)
      = Net.hidden (Net.gates (fun k => val_main_v42 (F := Ideal) x0 x1 x2 x3 x4 x9 x10 (ix2 r k))
          (fun k => x9 (ix3 (1 : Fin 2) (0 : Fin 1) k))
          (fun k j => x5 (ix2 j k)) (fun k j => x6 (ix2 j k)) (fun j => x7 (ix1 j) + x8 (ix1 j)))
          (fun k => x10 (ix3 (1 : Fin 2) (0 : Fin 1) k)) q := by
  rw [val_main_v83_apply, val_main_v77_apply, val_main_v82_apply, val_main_v81_apply, val_main_v79_apply,
    val_main_v80_apply, val_main_v71_apply, val_main_v65_apply, val_main_v78_apply, val_main_v75_apply,
    val_main_v69_apply, val_main_v63_apply, val_main_v73_apply, val_main_v67_apply, val_main_v61_apply,
    val_main_v72_apply, val_main_v66_apply, val_main_v60_apply, v56_at, v57_at, v58_at, v59_at, v46_at,
    v62_one, v64_one, v68_one, v70_one, v74_one, v76_one]
  simp only [Ideal.mulf_def, Ideal.addf_def, Ideal.hostDivf_def, Ideal.hostUnary_exp_def,
    Ideal.hostUnary_tanh_def, Ideal.hostNegf_def, Ideal.negf_def, v55_at]
  exact hidden_spelt _ (fun k => x10 (ix3 (1 : Fin 2) (0 : Fin 1) k)) q

end Cert.ReferenceIdeal.Rows

end
-- ==== Proof.RefHeads.lean ====
/-
  The reference's two heads, row by row, from the second cell's hidden-state array.

  The normalised head: a linear map with the weights read transposed; its row mean and the row mean of the squared
  deviations (the host's sums start from the zero word, which adds nothing); the normalised, scaled and shifted result.
  The softplus head: a second linear map through the stable softplus, whose guard against a value different from itself
  never fires over the extended reals, plus a small constant.
-/
import proofs.«134364_j54992761258656_1_alg».proof.Proof.Gen.ReferenceIdeal.Read
import proofs.«134364_j54992761258656_1_alg».proof.Proof.Net
import Idealize.ShloMosaic.Lib.ValueIdx

noncomputable section

namespace Cert.ReferenceIdeal.Rows

open Cert.ReferenceIdeal Cert.ReferenceIdeal.Read Idealize.ShloMosaic Idealize.ShloMosaic.ValueIdx

/-! ## The composed index maps, at an index given by its coordinates -/

private theorem lidx85_ix (r : Fin 524288) (q : Fin 16) (k : Fin 32) :
    lidx_main_v85 (ix2 r q) k = ix2 r k :=
  funext fun a => Fin.ext (by match a with | ⟨0, _⟩ => rfl | ⟨1, _⟩ => rfl)

private theorem ridx85_ix (r : Fin 524288) (q : Fin 16) (k : Fin 32) :
    idx_main_v84 (ridx_main_v85 (ix2 r q) k) = ix2 q k :=
  funext fun a => Fin.ext (by match a with | ⟨0, _⟩ => rfl | ⟨1, _⟩ => rfl)

private theorem bias88_ix (r : Fin 524288) (q : Fin 16) :
    idx_main_v86 (idx_main_v87 (ix2 r q)) = ix1 q :=
  funext fun a => Fin.ext (by match a with | ⟨0, _⟩ => rfl)

private theorem lidx114_ix (r : Fin 524288) (q : Fin 16) (k : Fin 32) :
    lidx_main_v114 (ix2 r q) k = ix2 r k :=
  funext fun a => Fin.ext (by match a with | ⟨0, _⟩ => rfl | ⟨1, _⟩ => rfl)

private theorem ridx114_ix (r : Fin 524288) (q : Fin 16) (k : Fin 32) :
    idx_main_v113 (ridx_main_v114 (ix2 r q) k) = ix2 q k :=
  funext fun a => Fin.ext (by match a with | ⟨0, _⟩ => rfl | ⟨1, _⟩ => rfl)

private theorem bias117_ix (r : Fin 524288) (q : Fin 16) :
    idx_main_v115 (idx_main_v116 (ix2 r q)) = ix1 q :=
  funext fun a => Fin.ext (by match a with | ⟨0, _⟩ => rfl)

/-- The row sum of the mean reads row `r`. -/
private theorem sum89_ix (r : Fin 524288) (z : Fin 1) (k : Fin 16) :
    idx_main_v89 (idx_main_v90 (ix2 r z)) k = ix2 r k :=
  funext fun a => Fin.ext (by match a with | ⟨0, _⟩ => rfl | ⟨1, _⟩ => rfl)

/-- The row sum of the squared deviations reads row `r`. -/
private theorem sum96_ix (r : Fin 524288) (z : Fin 1) (k : Fin 16) :
    idx_main_v96 (idx_main_v97 (ix2 r z)) k = ix2 r k :=
  funext fun a => Fin.ext (by match a with | ⟨0, _⟩ => rfl | ⟨1, _⟩ => rfl)

/-- A column broadcast along the 16 outputs reads the column at row `r`. -/
private theorem col93_ix (r : Fin 524288) (q : Fin 16) :
    idx_main_v93 (ix2 r q) = ix2 r (⟨0, Nat.one_pos⟩ : Fin 1) :=
  funext fun a => Fin.ext (by match a with | ⟨0, _⟩ => rfl | ⟨1, _⟩ => rfl)

private theorem col100_ix (r : Fin 524288) (q : Fin 16) :
    idx_main_v100 (ix2 r q) = ix2 r (⟨0, Nat.one_pos⟩ : Fin 1) :=
  funext fun a => Fin.ext (by match a with | ⟨0, _⟩ => rfl | ⟨1, _⟩ => rfl)

private theorem col105_ix (r : Fin 524288) (q : Fin 16) :
    idx_main_v105 (ix2 r q) = ix2 r (⟨0, Nat.one_pos⟩ : Fin 1) :=
  funext fun a => Fin.ext (by match a with | ⟨0, _⟩ => rfl | ⟨1, _⟩ => rfl)

private theorem gain_ix (r : Fin 524288) (q : Fin 16) :
    idx_main_v107 (idx_main_v108 (ix2 r q)) = ix1 q :=
  funext fun a => Fin.ext (by match a with | ⟨0, _⟩ => rfl)

private theorem shift_ix (r : Fin 524288) (q : Fin 16) :
    idx_main_v110 (idx_main_v111 (ix2 r q)) = ix1 q :=
  funext fun a => Fin.ext (by match a with | ⟨0, _⟩ => rfl)

/-! ## The stages of the normalisation, row by row -/

/-- The column of row means at row `r`: the host's sum starts from the zero word, which adds nothing. -/
private theorem mean_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 : (⟨S16, .f32⟩ : BufTy).Contents (Elt Ideal)) (r : Fin 524288) (z : Fin 1) :
    val_main_v92 (F := Ideal) x0 x1 x2 x3 x4 x5 x6 x7 x8 x9 x10 x11 x12 (ix2 r z) = Net.mean16 (fun j => val_main_v88 (F := Ideal) x0 x1 x2 x3 x4 x5 x6 x7 x8 x9 x10 x11 x12 (ix2 r j)) := by
  rw [val_main_v92_apply, val_main_v90_apply, val_main_v91_apply, val_main_v89_apply, val_main_cst_11_apply,
    val_main_cst_12_apply]
  simp only [Ideal.hostDivf_def, Ideal.ofBits_def, Ideal.ofBits_zero_f32, zero_add]
  unfold Net.mean16
  refine congrArg (Ideal.div · _) (Finset.sum_congr rfl fun k _ => ?_)
  rw [sum89_ix]

/-- The deviation from the row mean at `(r, q)`, as the variance reads it. -/
private theorem dev94_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 : (⟨S16, .f32⟩ : BufTy).Contents (Elt Ideal)) (r : Fin 524288) (q : Fin 16) :
    val_main_v94 (F := Ideal) x0 x1 x2 x3 x4 x5 x6 x7 x8 x9 x10 x11 x12 (ix2 r q)
      = val_main_v88 (F := Ideal) x0 x1 x2 x3 x4 x5 x6 x7 x8 x9 x10 x11 x12 (ix2 r q) - Net.mean16 (fun j => val_main_v88 (F := Ideal) x0 x1 x2 x3 x4 x5 x6 x7 x8 x9 x10 x11 x12 (ix2 r j)) := by
  rw [val_main_v94_apply, val_main_v93_apply, col93_ix, mean_apply]
  rfl

/-- The deviation from the row mean at `(r, q)`, as the result reads it (the mean broadcast a second time). -/
private theorem dev101_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 : (⟨S16, .f32⟩ : BufTy).Contents (Elt Ideal)) (r : Fin 524288) (q : Fin 16) :
    val_main_v101 (F := Ideal) x0 x1 x2 x3 x4 x5 x6 x7 x8 x9 x10 x11 x12 (ix2 r q)
      = val_main_v88 (F := Ideal) x0 x1 x2 x3 x4 x5 x6 x7 x8 x9 x10 x11 x12 (ix2 r q) - Net.mean16 (fun j => val_main_v88 (F := Ideal) x0 x1 x2 x3 x4 x5 x6 x7 x8 x9 x10 x11 x12 (ix2 r j)) := by
  rw [val_main_v101_apply, val_main_v100_apply, col100_ix, mean_apply]
  rfl

/-- The column of row variances at row `r`. -/
private theorem var_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 : (⟨S16, .f32⟩ : BufTy).Contents (Elt Ideal)) (r : Fin 524288) (z : Fin 1) :
    val_main_v99 (F := Ideal) x0 x1 x2 x3 x4 x5 x6 x7 x8 x9 x10 x11 x12 (ix2 r z) = Net.var16 (fun j => val_main_v88 (F := Ideal) x0 x1 x2 x3 x4 x5 x6 x7 x8 x9 x10 x11 x12 (ix2 r j)) := by
  rw [val_main_v99_apply, val_main_v97_apply, val_main_v98_apply, val_main_v96_apply, val_main_cst_13_apply,
    val_main_cst_14_apply]
  simp only [Ideal.hostDivf_def, Ideal.ofBits_def, Ideal.ofBits_zero_f32, zero_add]
  rw [Net.var16, Net.mean16]
  refine congrArg (Ideal.div · _) (Finset.sum_congr rfl fun k _ => ?_)
  rw [sum96_ix, val_main_v95_apply, dev94_apply]
  rfl

/-- The normalised head's linear map at `(r, q)`. -/
theorem mulin_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 : (⟨S16, .f32⟩ : BufTy).Contents (Elt Ideal)) (r : Fin 524288) (q : Fin 16) :
    val_main_v88 (F := Ideal) x0 x1 x2 x3 x4 x5 x6 x7 x8 x9 x10 x11 x12 (ix2 r q)
      = Net.lin (fun k => val_main_v83 (F := Ideal) x0 x1 x2 x3 x4 x5 x6 x7 x8 x9 x10 (ix2 r k))
          (fun k j => x11 (ix2 j k)) (fun j => x12 (ix1 j)) q := by
  rw [val_main_v88_apply, val_main_v85_apply, val_main_v87_apply, val_main_v86_apply, bias88_ix]
  simp only [val_main_v84_apply, Ideal.addf_def]
  unfold Net.lin
  refine congrArg (· + _) (Finset.sum_congr rfl fun k _ => ?_)
  rw [lidx85_ix, ridx85_ix]

/-- The first result at `(r, q)`: the layer normalisation of row `r` of the linear map. -/
theorem mu_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 x13 x14 : (⟨S16, .f32⟩ : BufTy).Contents (Elt Ideal)) (r : Fin 524288) (q : Fin 16) :
    val_main_v112 (F := Ideal) x0 x1 x2 x3 x4 x5 x6 x7 x8 x9 x10 x11 x12 x13 x14 (ix2 r q)
      = Net.layerNorm (fun j => val_main_v88 (F := Ideal) x0 x1 x2 x3 x4 x5 x6 x7 x8 x9 x10 x11 x12 (ix2 r j))
          (fun j => x13 (ix1 j)) (fun j => x14 (ix1 j)) q := by
  rw [val_main_v112_apply, val_main_v109_apply, val_main_v106_apply, val_main_v111_apply, val_main_v110_apply,
    val_main_v108_apply, val_main_v107_apply, val_main_v105_apply, val_main_v104_apply, val_main_v103_apply,
    val_main_v102_apply, val_main_cst_15_apply, col105_ix, gain_ix, shift_ix, dev101_apply, var_apply]
  simp only [Ideal.addf_def, Ideal.mulf_def, Ideal.hostUnary_rsqrt_def, Ideal.ofBits_def]
  rfl

/-- The softplus head's linear map at `(r, q)`. -/
theorem siglin_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x15 : (⟨S16x32, .f32⟩ : BufTy).Contents (Elt Ideal)) (x16 : (⟨S16, .f32⟩ : BufTy).Contents (Elt Ideal)) (r : Fin 524288) (q : Fin 16) :
    val_main_v117 (F := Ideal) x0 x1 x2 x3 x4 x5 x6 x7 x8 x9 x10 x15 x16 (ix2 r q)
      = Net.lin (fun k => val_main_v83 (F := Ideal) x0 x1 x2 x3 x4 x5 x6 x7 x8 x9 x10 (ix2 r k))
          (fun k j => x15 (ix2 j k)) (fun j => x16 (ix1 j)) q := by
  rw [val_main_v117_apply, val_main_v114_apply, val_main_v116_apply, val_main_v115_apply, bias117_ix]
  simp only [val_main_v113_apply, Ideal.addf_def]
  unfold Net.lin
  refine congrArg (· + _) (Finset.sum_congr rfl fun k _ => ?_)
  rw [lidx114_ix, ridx114_ix]

/-- The second result at `(r, q)`: the stable softplus of the linear map there, plus the small constant. -/
theorem sigma_apply (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x15 : (⟨S16x32, .f32⟩ : BufTy).Contents (Elt Ideal)) (x16 : (⟨S16, .f32⟩ : BufTy).Contents (Elt Ideal)) (r : Fin 524288) (q : Fin 16) :
    val_main_v120 (F := Ideal) x0 x1 x2 x3 x4 x5 x6 x7 x8 x9 x10 x15 x16 (ix2 r q)
      = Net.softplusEps (val_main_v117 (F := Ideal) x0 x1 x2 x3 x4 x5 x6 x7 x8 x9 x10 x15 x16 (ix2 r q)) := by
  rw [val_main_v120_apply, val_main_v118_apply, val_main_v119_apply, val_main_cst_16_apply,
    val_main_call0_v4_apply, Ideal.cmpf_def, Net.cmp_une_self, ValueIdx.select_zero,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_cst_apply]
  simp only [Ideal.addf_def, Ideal.subf_def, Ideal.maximumf_def, Ideal.hostUnary_log1p_def,
    Ideal.hostUnary_exp_def, Ideal.hostNegf_def, Ideal.negf_def, Ideal.hostAbsf_def, Ideal.absf_def,
    Ideal.ofBits_def, Ideal.ofBits_zero_f32, Net.sub_zero']
  rfl

end Cert.ReferenceIdeal.Rows

end
-- ==== Proof.RefRows.lean ====
/-
  The reference's two results are the network applied row by row.

  Chaining the cells and the heads: row `r` of the first result is `Net.mu`, and of the second `Net.sigma`, of the
  parameters read out of the arguments and row `r` of the input array.
-/
import proofs.«134364_j54992761258656_1_alg».proof.Proof.RefCells
import proofs.«134364_j54992761258656_1_alg».proof.Proof.RefHeads
import proofs.«134364_j54992761258656_1_alg».proof.Proof.NetArgs

noncomputable section

namespace Cert.ReferenceIdeal.Rows

open Cert.ReferenceIdeal Cert.ReferenceIdeal.Read Idealize.ShloMosaic Idealize.ShloMosaic.ValueIdx

/-- Row `r` of the second cell's hidden-state array is the feature vector of row `r` of the input. -/
theorem features_row (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 x13 x14 : (⟨S16, .f32⟩ : BufTy).Contents (Elt Ideal)) (x15 : (⟨S16x32, .f32⟩ : BufTy).Contents (Elt Ideal)) (x16 : (⟨S16, .f32⟩ : BufTy).Contents (Elt Ideal)) (r : Fin 524288) :
    (fun k => val_main_v83 (F := Ideal) x0 x1 x2 x3 x4 x5 x6 x7 x8 x9 x10 (ix2 r k))
      = Net.features (Net.argParams x1 x2 x3 x4 x5 x6 x7 x8 x9 x10 x11 x12 x13 x14 x15 x16) (Net.inputRow x0 r) := by
  funext q
  rw [h2_apply]
  simp only [h1_apply]
  rfl

/-- The first result is `Net.muArray`. -/
theorem mu_eq (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 x13 x14 : (⟨S16, .f32⟩ : BufTy).Contents (Elt Ideal)) (x15 : (⟨S16x32, .f32⟩ : BufTy).Contents (Elt Ideal)) (x16 : (⟨S16, .f32⟩ : BufTy).Contents (Elt Ideal)) :
    val_main_v112 (F := Ideal) x0 x1 x2 x3 x4 x5 x6 x7 x8 x9 x10 x11 x12 x13 x14
      = Net.muArray (Net.argParams x1 x2 x3 x4 x5 x6 x7 x8 x9 x10 x11 x12 x13 x14 x15 x16) x0 := by
  funext i
  obtain ⟨r, q, rfl⟩ : ∃ (r : Fin 524288) (q : Fin 16), i = ix2 r q := ⟨i 0, i 1, eq_ix2 i⟩
  rw [mu_apply]
  simp only [mulin_apply]
  rw [features_row x0 x1 x2 x3 x4 x5 x6 x7 x8 x9 x10 x11 x12 x13 x14 x15 x16 r]
  rfl

/-- The second result is `Net.sigmaArray`. -/
theorem sigma_eq (x0 : (⟨S524288x8, .f32⟩ : BufTy).Contents (Elt Ideal)) (x1 : (⟨S128x8, .f32⟩ : BufTy).Contents (Elt Ideal)) (x2 : (⟨S128x32, .f32⟩ : BufTy).Contents (Elt Ideal)) (x3 x4 : (⟨S128, .f32⟩ : BufTy).Contents (Elt Ideal)) (x5 x6 : (⟨S128x32, .f32⟩ : BufTy).Contents (Elt Ideal)) (x7 x8 : (⟨S128, .f32⟩ : BufTy).Contents (Elt Ideal)) (x9 x10 : (⟨S2x1x32, .f32⟩ : BufTy).Contents (Elt Ideal)) (x11 : (⟨S16x32, .f32⟩ : BufTy).Contents (Elt Ideal)) (x12 x13 x14 : (⟨S16, .f32⟩ : BufTy).Contents (Elt Ideal)) (x15 : (⟨S16x32, .f32⟩ : BufTy).Contents (Elt Ideal)) (x16 : (⟨S16, .f32⟩ : BufTy).Contents (Elt Ideal)) :
    val_main_v120 (F := Ideal) x0 x1 x2 x3 x4 x5 x6 x7 x8 x9 x10 x15 x16
      = Net.sigmaArray (Net.argParams x1 x2 x3 x4 x5 x6 x7 x8 x9 x10 x11 x12 x13 x14 x15 x16) x0 := by
  funext i
  obtain ⟨r, q, rfl⟩ : ∃ (r : Fin 524288) (q : Fin 16), i = ix2 r q := ⟨i 0, i 1, eq_ix2 i⟩
  rw [sigma_apply, siglin_apply]
  rw [features_row x0 x1 x2 x3 x4 x5 x6 x7 x8 x9 x10 x11 x12 x13 x14 x15 x16 r]
  rfl

end Cert.ReferenceIdeal.Rows

end
-- ==== Proof.lean ====
/-
  Two stacked LSTM cells applied for one time step to each of 524288 independent input rows, followed by a linear head
  with layer normalisation and a linear head with softplus: a kernel that streams the rows through in 128 tiles of 4096,
  with every parameter resident, against the plain whole-batch program.

  Over the extended reals both programs compute, for every row, the same function of that row and of the parameters
  (`Net.mu`, `Net.sigma`): a matrix unit's product into zeros and the host's `dot_general` are the same sum, the logistic
  function is `1 / (1 + e^{-x})` on both sides, the row sums are the same sums, and the softplus's guard against a value
  different from itself never fires. No law used needs the inputs finite. The kernel's value is read off the generated
  frame run block by block (row `p` of tile `t` is row `4096 t + p` of the batch), the reference's off its generated run,
  operation by operation.
-/
import proofs.«134364_j54992761258656_1_alg».proof.Defs
import proofs.«134364_j54992761258656_1_alg».proof.Proof.Gen.Kernel
import proofs.«134364_j54992761258656_1_alg».proof.Proof.Gen.Kernel.Frame
import proofs.«134364_j54992761258656_1_alg».proof.Proof.Gen.KernelIdeal
import proofs.«134364_j54992761258656_1_alg».proof.Proof.Gen.KernelIdeal.Frame
import proofs.«134364_j54992761258656_1_alg».proof.Proof.Gen.KernelIdeal.Value
import proofs.«134364_j54992761258656_1_alg».proof.Proof.Gen.ReferenceIdeal
import proofs.«134364_j54992761258656_1_alg».proof.Proof.Gen.ReferenceIdeal.Run
import proofs.«134364_j54992761258656_1_alg».proof.Proof.Gen.ReferenceIdeal.Read
import proofs.«134364_j54992761258656_1_alg».proof.Proof.Gen.Pre_finite_inputs
import proofs.«134364_j54992761258656_1_alg».proof.Proof.KernelArray
import proofs.«134364_j54992761258656_1_alg».proof.Proof.RefRows
import Idealize.ShloMosaic.Adequacy
import Idealize.ShloMosaic.Init

noncomputable section

namespace Cert.Proof

open Idealize.ShloMosaic Idealize.SL.Sem

/-- Both idealized programs end with the two results at `Net.muArray` and `Net.sigmaArray` of the arguments. -/
theorem algebraic : Cert.algebraic_KernelIdeal_ReferenceIdeal := by
  intro m ρ m' ρ' _ hagree
  refine ⟨fun c => Cert.KernelIdeal.Whole.muWhole m c, fun c => Cert.KernelIdeal.Whole.sigmaWhole m c, ?_, ?_⟩
  · exact (θ_run Cert.KernelIdeal.defs _ _).mono
      (fun r h c => ⟨(h c).1.trans (Cert.KernelIdeal.Whole.final17 m c),
        (h c).2.1.trans (Cert.KernelIdeal.Whole.final18 m c), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16⟩ := hagree c
      rw [Cert.ReferenceIdeal.Read.val_main_v112_eq,
        Cert.ReferenceIdeal.Rows.mu_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)),
        h0, h1, h2, h3, h4, h5, h6, h7, h8, h9, h10, h11, h12, h13, h14, h15, h16]
    · obtain ⟨h0, h1, h2, h3, h4, h5, h6, h7, h8, h9, h10, h11, h12, h13, h14, h15, h16⟩ := hagree c
      rw [Cert.ReferenceIdeal.Read.val_main_v120_eq,
        Cert.ReferenceIdeal.Rows.sigma_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)),
        h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
